-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_arg7 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S128x40 .f32 := Host.absf main_arg7
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x40 .f32) (main_arg6 : FVec F S40 .f32) (main_arg7 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S4000x128 : Shape := ⟨2, ![4000, 128]⟩
abbrev S1x128 : Shape := ⟨2, ![1, 128]⟩
abbrev S4000 : Shape := ⟨1, ![4000]⟩
abbrev S4000x1 : Shape := ⟨2, ![4000, 1]⟩
abbrev S100000x40 : Shape := ⟨2, ![100000, 40]⟩
abbrev S4000x40 : Shape := ⟨2, ![4000, 40]⟩
abbrev S1x40 : Shape := ⟨2, ![1, 40]⟩

abbrev nBuf : Space → Nat
  | .hbm => 57
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x40, .f32⟩
  | .local _ .vmem, ⟨14, _⟩ => ⟨S40, .f32⟩
  | .local _ .vmem, ⟨15, _⟩ => ⟨S128x40, .f32⟩
  | .local _ .vmem, ⟨16, _⟩ => ⟨S4000x40, .f32⟩
  | .local _ .vmem, ⟨17, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  reduces_S4000x128_S4000 : S4000x128.Reduces [1] S4000
  shapeCasts_S4000_S4000x1 : S4000.ShapeCasts S4000x1
  broadcasts_S4000x1_S4000x128 : S4000x1.Broadcasts S4000x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  broadcasts_S1x40_S4000x40 : S1x40.Broadcasts S4000x40
  reduces_S4000x40_S4000 : S4000x40.Reduces [1] S4000
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40.size a ≤ S40.size a
  hwx1_3 : ∀ i : grid1.Coords, EltTy.bits .f32 = 32 ∨ (Rect.block (s := S40) S40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x40.size a ≤ S100000x40.size a
  hwx1_5 : ∀ i : grid1.Coords, EltTy.bits .f32 = 32 ∨ (Rect.block (s := S100000x40) S4000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_v24) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S4000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x40, .f32⟩
  | .hbm, ⟨6, _⟩ => ⟨S40, .f32⟩
  | .hbm, ⟨7, _⟩ => ⟨S128x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000, .f32⟩
  | .hbm, ⟨46, _⟩ => ⟨S100000x1, .f32⟩
  | .hbm, ⟨47, _⟩ => ⟨S100000x1, .f32⟩
  | .hbm, ⟨48, _⟩ => ⟨S_, .f32⟩
  | .hbm, ⟨49, _⟩ => ⟨S100000x1, .f32⟩
  | .hbm, ⟨50, _⟩ => ⟨S100000x1, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S_, .f32⟩
  | .hbm, ⟨70, _⟩ => ⟨S1600000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S100000x1, .f32⟩
  | .hbm, ⟨79, _⟩ => ⟨S100000x128, .f32⟩
  | .hbm, ⟨80, _⟩ => ⟨S100000x128, .f32⟩
  | .hbm, ⟨81, _⟩ => ⟨S100000x40, .f32⟩
  | .hbm, ⟨82, _⟩ => ⟨S1x40, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S100000x40, .f32⟩
  | .hbm, ⟨87, _⟩ => ⟨S100000x40, .f32⟩
  | .hbm, ⟨88, _⟩ => ⟨S_, .f32⟩
  | .hbm, ⟨89, _⟩ => ⟨S100000, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x40, .f32⟩
  | .hbm, ⟨104, _⟩ => ⟨S100000x40, .f32⟩
  | .hbm, ⟨105, _⟩ => ⟨S100000x40, .f32⟩
  | .hbm, ⟨106, _⟩ => ⟨S_, .f32⟩
  | .hbm, ⟨107, _⟩ => ⟨S100000, .f32⟩
  | .hbm, ⟨108, _⟩ => ⟨S100000x1, .f32⟩
  | .hbm, ⟨109, _⟩ => ⟨S100000x1, .f32⟩
  | .hbm, ⟨110, _⟩ => ⟨S100000x40, .f32⟩
  | .hbm, ⟨111, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_call0_v2 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call2_v0 : Ref sig .tc := ⟨.hbm, 87, rfl⟩
abbrev main_call2_cst : Ref sig .tc := ⟨.hbm, 88, rfl⟩
abbrev main_call2_v1 : Ref sig .tc := ⟨.hbm, 89, rfl⟩
abbrev main_call2_v2 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call3_cst : Ref sig .tc := ⟨.hbm, 97, rfl⟩
abbrev main_call3_v0 : Ref sig .tc := ⟨.hbm, 98, rfl⟩
abbrev main_call3_cst_0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_cst_1 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_v65 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.Spec.lean ====
/-
  The two layers of the graph convolution, stated row by row on the extended reals.

  One node's row of a layer is a function of that node's aggregated neighbour row `u`, its own row `v`, two weight
  matrices and a bias: the pre-activation `u·Wl + v·Wr + b`, divided by its Euclidean length (floored at a small
  constant). The first layer then clamps at zero; the second takes the log-softmax of the row. A layer of an array is
  that function on every row, so a block of rows of the layer is the layer of the block of rows.
-/
import Idealize.ShloMosaic.PureOps.Ideal
import Idealize.ShloMosaic.Lib.ValueIdx

noncomputable section

namespace Cert.Sage

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- The floor under a row's length: the value of the single-precision word nearest to `1e-12`. -/
abbrev floorLen : EReal := Ideal.ofBits .f32 0x2B8CBCCC#32
/-- The value a running maximum starts from: the word of minus infinity. -/
abbrev maxStart : EReal := Ideal.ofBits .f32 0xFF800000#32

/-- Row `r` of an array. -/
def row {M K : Nat} (a : Mat M K) (r : Fin M) : Fin K → EReal := fun k => a (ix2 r k)

/-- A node's pre-activation: `(u · Wl)[q] + (v · Wr)[q] + b[q]`. -/
def pre {K N : Nat} (u v : Fin K → EReal) (wl : Mat K N) (b : Row N) (wr : Mat K N) : Fin N → EReal :=
  fun q => (∑ k : Fin K, u k * wl (ix2 k q)) + (∑ k : Fin K, v k * wr (ix2 k q)) + b (ix1 q)

/-- A row's Euclidean length, floored. -/
def len {N : Nat} (o : Fin N → EReal) : EReal := max (Ideal.sqrt (∑ q : Fin N, o q * o q)) floorLen

/-- A row divided by its floored length. -/
def unit {N : Nat} (o : Fin N → EReal) : Fin N → EReal := fun q => Ideal.div (o q) (len o)

/-- A row's largest entry, as a fold of `max`. -/
def rowMax {N : Nat} (z : Fin N → EReal) : EReal := (Finset.univ : Finset (Fin N)).fold max maxStart z

/-- The log-softmax of a row: shift by the largest entry, subtract the log of the sum of exponentials. -/
def lsm {N : Nat} (z : Fin N → EReal) : Fin N → EReal :=
  fun q => (z q - rowMax z) - Ideal.log (∑ j : Fin N, Ideal.exp (z j - rowMax z))

/-- The first layer: the unit pre-activation of every row, clamped at zero. -/
def hidden {M K N : Nat} (mean x : Mat M K) (wl : Mat K N) (b : Row N) (wr : Mat K N) : Mat M N :=
  fun i => max (unit (pre (row mean (i 0)) (row x (i 0)) wl b wr) (i 1)) 0

/-- The second layer: the log-softmax of the unit pre-activation of every row. -/
def logits {M K N : Nat} (mean x : Mat M K) (wl : Mat K N) (b : Row N) (wr : Mat K N) : Mat M N :=
  fun i => lsm (unit (pre (row mean (i 0)) (row x (i 0)) wl b wr)) (i 1)

theorem hidden_apply {M K N : Nat} (mean x : Mat M K) (wl : Mat K N) (b : Row N) (wr : Mat K N) (r : Fin M) (q : Fin N) :
    hidden mean x wl b wr (ix2 r q) = max (unit (pre (row mean r) (row x r) wl b wr) q) 0 := rfl

theorem logits_apply {M K N : Nat} (mean x : Mat M K) (wl : Mat K N) (b : Row N) (wr : Mat K N) (r : Fin M) (q : Fin N) :
    logits mean x wl b wr (ix2 r q) = lsm (unit (pre (row mean r) (row x r) wl b wr)) q := rfl

/-- A layer's row `r` depends on the two input arrays only through their rows `r`: if two pairs of arrays agree on a
    row, the layers agree on it (the row offsets may differ: a block of rows against the whole array). -/
theorem hidden_congr_row {M M' K N : Nat} (mean x : Mat M K) (mean' x' : Mat M' K) (wl : Mat K N) (b : Row N) (wr : Mat K N)
    (r : Fin M) (r' : Fin M') (q : Fin N) (hm : row mean r = row mean' r') (hx : row x r = row x' r') :
    hidden mean x wl b wr (ix2 r q) = hidden mean' x' wl b wr (ix2 r' q) := by
  rw [hidden_apply, hidden_apply, hm, hx]

theorem logits_congr_row {M M' K N : Nat} (mean x : Mat M K) (mean' x' : Mat M' K) (wl : Mat K N) (b : Row N) (wr : Mat K N)
    (r : Fin M) (r' : Fin M') (q : Fin N) (hm : row mean r = row mean' r') (hx : row x r = row x' r') :
    logits mean x wl b wr (ix2 r q) = logits mean' x' wl b wr (ix2 r' q) := by
  rw [logits_apply, logits_apply, hm, hx]

/-! ## The neighbour mean: a product with the reciprocal of the degree is the quotient by the degree

The degree is floored at one, so the divisor is never zero, and off zero the quotient IS the product with the
inverse, at the infinities too. -/

theorem scale_eq_div (s d one : EReal) (h : one = 1) :
    s * Ideal.div one (max d one) = Ideal.div s (max d one) := by
  subst h
  have hne : max d 1 ≠ 0 := (lt_of_lt_of_le zero_lt_one (le_max_right d 1)).ne'
  unfold Ideal.div
  rw [if_neg hne, if_neg hne, one_mul]

/-- The word of one denotes one. -/
theorem ofBits_one : Ideal.ofBits .f32 0x3F800000#32 = 1 := by
  simp [Ideal.ofBits, Ideal.ieee, -EReal.coe_mul]; norm_num

/-- The word of minus infinity denotes the bottom element, under which `max` is the identity. -/
theorem maxStart_eq : maxStart = ⊥ := by
  simp [maxStart, Ideal.ofBits, Ideal.ieee]

theorem max_maxStart (x : EReal) : max maxStart x = x := by
  rw [maxStart_eq]; exact max_eq_right bot_le

end Cert.Sage

end
-- ==== Proof.Mean.lean ====
/-
  The neighbour mean of a feature array over the edges, in the two spellings the programs use.

  An edge array holds a row of source nodes and a row of destination nodes. The features of every edge's source (a
  negative source counted from the end) are gathered and added into the edge's destination row; a node's degree is the
  number of edges that arrive at it, floored at one. One program multiplies the summed rows by the reciprocal of the
  floored degree, the other divides by the floored degree. On the extended reals the two are one array: the divisor is
  at least one, so it is never zero, and off zero a quotient is the product with the inverse.
-/
import proofs.«104940_j22411139350784_1_alg».proof.Proof.Gen.KernelIdeal
import proofs.«104940_j22411139350784_1_alg».proof.Proof.Spec
import Idealize.ShloMosaic.Lib.StableHlo.Predicate
import Idealize.ShloMosaic.Lib.ValueIdx

noncomputable section

namespace Cert.KernelIdeal.Mean

open Idealize.ShloMosaic Idealize.ShloMosaic.ValueIdx Cert.KernelIdeal Cert.KernelIdeal.Facts₀

variable {F : FTy → Type} [FloatOps F]

/-- Row `a` of the edge array as a vector. -/
abbrev edgeRow0 (e : Vec F S2x1600000 .i32) : Vec F S1600000 .i32 :=
  shapeCast _ (extractStridedSlice S1x1600000 ![0, 0] e slices_S2x1600000_S1x1600000_0_0) shapeCasts_S1x1600000_S1600000
abbrev edgeRow1 (e : Vec F S2x1600000 .i32) : Vec F S1600000 .i32 :=
  shapeCast _ (extractStridedSlice S1x1600000 ![1, 0] e slices_S2x1600000_S1x1600000_1_0) shapeCasts_S1x1600000_S1600000

/-- The edges' source nodes as a column of start indices, a negative one counted from the end. -/
def srcCol (e : Vec F S2x1600000 .i32) : Vec F S1600000x1 .i32 :=
  broadcastInDim S1600000x1 ![0] bcast_S1600000_S1600000x1_0
    (select (cmpi .slt (edgeRow0 e) (broadcastInDim S1600000 ![] bcast_S_S1600000 (constantI S_ 32 0#32)))
      (addi (edgeRow0 e) (broadcastInDim S1600000 ![] bcast_S_S1600000 (constantI S_ 32 100000#32))) (edgeRow0 e))

/-- The edges' destination nodes as a column of scatter indices. -/
def dstCol (e : Vec F S2x1600000 .i32) : Vec F S1600000x1 .i32 :=
  broadcastInDim S1600000x1 ![0] bcast_S1600000_S1600000x1_0 (edgeRow1 e)

/-- The features of every edge's source node, added into the edge's destination row. -/
def summed (feat : Vec F S100000x128 .f32) (e : Vec F S2x1600000 .i32) : Vec F S100000x128 .f32 :=
  Host.scatterAdd scatter_S100000x128_S1600000x1_S1600000x128_1_0_0_1
    (broadcastInDim S100000x128 ![] bcast_S_S100000x128 (constant S_ .f32 0x00000000#32)) (dstCol e)
    (Host.gather gather_S100000x128_S1600000x1_S1600000x128_1_0_n_n_0_1_1128 feat (srcCol e))

/-- The number of edges arriving at each node. -/
def degree (e : Vec F S2x1600000 .i32) : Vec F S100000 .f32 :=
  Host.scatterAdd scatter_S100000_S1600000x1_S1600000_n_0_0_1
    (broadcastInDim S100000 ![] bcast_S_S100000 (constant S_ .f32 0x00000000#32)) (dstCol e)
    (broadcastInDim S1600000 ![] bcast_S_S1600000 (constant S_ .f32 0x3F800000#32))

/-- The degree floored at one. -/
def degFloor (e : Vec F S2x1600000 .i32) : Vec F S100000 .f32 :=
  maximumf (degree e) (broadcastInDim S100000 ![] bcast_S_S100000 (constant S_ .f32 0x3F800000#32))

/-- A per-node vector laid along every column of the feature array. -/
abbrev alongRows (v : Vec F S100000 .f32) : Vec F S100000x128 .f32 :=
  broadcastInDim S100000x128 ![0, 1] bcast_S100000x1_S100000x128_0_1 (broadcastInDim S100000x1 ![0] bcast_S100000_S100000x1_0 v)

/-- The mean as a product with the reciprocal of the floored degree. -/
def meanMul (feat : Vec F S100000x128 .f32) (e : Vec F S2x1600000 .i32) : Vec F S100000x128 .f32 :=
  mulf (summed feat e)
    (alongRows (Host.divf (broadcastInDim S100000 ![] bcast_S_S100000 (constant S_ .f32 0x3F800000#32)) (degFloor e)))

/-- The mean as a quotient by the floored degree. -/
def meanDiv (feat : Vec F S100000x128 .f32) (e : Vec F S2x1600000 .i32) : Vec F S100000x128 .f32 :=
  Host.divf (summed feat e) (alongRows (degFloor e))

/-- A per-node vector laid along the columns reads, at `(p, q)`, the vector at `p`. -/
theorem alongRows_apply (v : Vec F S100000 .f32) (p : Fin 100000) (q : Fin 128) :
    alongRows v (ix2 p q) = v (ix1 p) := by
  show broadcastInDim S100000x128 ![0, 1] bcast_S100000x1_S100000x128_0_1
      (broadcastInDim S100000x1 ![0] bcast_S100000_S100000x1_0 v) (ix2 p q) = v (ix1 p)
  have e2 : (ix2 p q : S100000x128.Idx) = StableHlo.Predicate.ij p q := by
    funext a; match a with | ⟨0, _⟩ => rfl | ⟨1, _⟩ => rfl
  have e1 : (ix1 p : S100000.Idx) = Shape.Idx.ofFin p := by
    funext a; match a with | ⟨0, _⟩ => rfl
  rw [e2, e1]
  exact StableHlo.Predicate.bcast_rows bcast_S100000_S100000x1_0 bcast_S100000x1_S100000x128_0_1 v p q

/-- The splat of the word of one holds one everywhere. -/
theorem ones_apply (j : S100000.Idx) :
    broadcastInDim S100000 ![] bcast_S_S100000 (constant (F := Ideal) S_ .f32 0x3F800000#32) j = 1 := by
  rw [StableHlo.Predicate.bcast_scalar bcast_S_S100000 (by decide) _ j, constant_apply]
  exact Cert.Sage.ofBits_one

/-- For any summed rows `s` and any degrees `d`: the product with the reciprocal of the floored degree is the quotient by
    the floored degree, entry by entry. -/
theorem scale_rows (s : Vec Ideal S100000x128 .f32) (d : Vec Ideal S100000 .f32) :
    mulf s (alongRows (Host.divf (broadcastInDim S100000 ![] bcast_S_S100000 (constant (F := Ideal) S_ .f32 0x3F800000#32))
        (maximumf d (broadcastInDim S100000 ![] bcast_S_S100000 (constant (F := Ideal) S_ .f32 0x3F800000#32)))))
      = Host.divf s (alongRows (maximumf d (broadcastInDim S100000 ![] bcast_S_S100000 (constant (F := Ideal) S_ .f32 0x3F800000#32)))) := by
  funext i
  obtain ⟨p, q, rfl⟩ : ∃ (p : Fin 100000) (q : Fin 128), i = ix2 p q := ⟨i 0, i 1, eq_ix2 i⟩
  generalize hone : broadcastInDim S100000 ![] bcast_S_S100000 (constant (F := Ideal) S_ .f32 0x3F800000#32) = ones
  have h1 : ones (ix1 p) = 1 := by rw [← hone]; exact ones_apply (ix1 p)
  show s (ix2 p q) * alongRows (Host.divf ones (maximumf d ones)) (ix2 p q)
    = Ideal.div (s (ix2 p q)) (alongRows (maximumf d ones) (ix2 p q))
  rw [alongRows_apply, alongRows_apply]
  exact Cert.Sage.scale_eq_div (s (ix2 p q)) (d (ix1 p)) (ones (ix1 p)) h1

/-- On the extended reals the two spellings of the mean are one array. -/
theorem meanMul_eq_meanDiv (feat : Vec Ideal S100000x128 .f32) (e : Vec Ideal S2x1600000 .i32) :
    meanMul (F := Ideal) feat e = meanDiv (F := Ideal) feat e := by
  unfold meanMul meanDiv degFloor
  exact scale_rows (summed feat e) (degree e)

/-! ## The two layers composed -/

/-- The network over a neighbour mean `agg`: the first layer of the node features and their mean, then the second layer
    of those hidden features and their mean. -/
def net (agg : Vec Ideal S100000x128 .f32 → Vec Ideal S2x1600000 .i32 → Vec Ideal S100000x128 .f32)
    (x : Vec Ideal S100000x128 .f32) (e : Vec Ideal S2x1600000 .i32) (w2 : Vec Ideal S128x128 .f32) (b3 : Vec Ideal S128 .f32)
    (w4 : Vec Ideal S128x128 .f32) (w5 : Vec Ideal S128x40 .f32) (b6 : Vec Ideal S40 .f32) (w7 : Vec Ideal S128x40 .f32) :
    Vec Ideal S100000x40 .f32 :=
  Cert.Sage.logits (M := 100000) (K := 128) (N := 40)
    (agg (Cert.Sage.hidden (M := 100000) (K := 128) (N := 128) (agg x e) x w2 b3 w4) e)
    (Cert.Sage.hidden (M := 100000) (K := 128) (N := 128) (agg x e) x w2 b3 w4) w5 b6 w7

/-- The network does not see which spelling of the mean it is given. -/
theorem net_meanMul_eq_net_meanDiv : net (meanMul (F := Ideal)) = net (meanDiv (F := Ideal)) :=
  congrArg net (funext fun feat => funext fun e => meanMul_eq_meanDiv feat e)

end Cert.KernelIdeal.Mean

end
-- ==== Proof.HostK.lean ====
/-
  What the kernel program's buffers hold where its two regions are entered.

  @main is a stretch of host operations, the first layer's region, a second stretch, the second layer's region. The
  first stretch leaves the argument arrays alone and computes the neighbour mean of the node features; the first region
  leaves every buffer but its output alone; the second stretch reads the first region's output, the edge rows and the
  reciprocal degrees the first stretch left, and computes the neighbour mean of that output. So each region is entered
  with the mean (as a product with the reciprocal degree) of the array the layer is applied to.
-/
import proofs.«104940_j22411139350784_1_alg».proof.Proof.Gen.KernelIdeal.Frame
import proofs.«104940_j22411139350784_1_alg».proof.Proof.Mean

set_option maxRecDepth 16384
-- terms over arrays of 100000 rows and 1.6 million edges are slow to elaborate, not hard
set_option maxHeartbeats 4000000

noncomputable section

namespace Cert.KernelIdeal.HostK

open Idealize.ShloMosaic Idealize.ShloMosaic.TcCoe Idealize.SL.Sem Idealize.ShloMosaic.StableHlo
open Cert.KernelIdeal Cert.KernelIdeal.Gen Cert.KernelIdeal.Mean

variable {F : FTy → Type} [FloatOps F]
variable (m : (ℓ : Loc nD τ sig) → Buf (Elt F) ℓ) (ρ : Dev nD → PrngReg)

/-! ## After the first stretch -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results <;> rfl

/-- The first stretch leaves the source row of the edge array, -/
theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results <;> rfl
/-- its destination row, -/
theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results <;> rfl
/-- the reciprocal of the floored degree as a column, -/
theorem W1_v12 (c : Dev nD) : W1 m ρ c (Proc.devRef .tc main_v12)
    = broadcastInDim S100000x1 ![0] Facts₀.bcast_S100000_S100000x1_0
        (Host.divf (broadcastInDim S100000 ![] Facts₀.bcast_S_S100000 (constant S_ .f32 0x3F800000#32)) (degFloor (m ((c : Thread nD τ).loc main_arg1)))) := by
  show StableHlo.after hostOps0 (W0 m ρ c) (Proc.devRef .tc main_v12) = _
  after_results <;> rfl
/-- and the neighbour mean of the node features. -/
theorem W1_mean (c : Dev nD) : W1 m ρ c (Proc.devRef .tc main_v24)
    = meanMul (m ((c : Thread nD τ).loc main_arg0)) (m ((c : Thread nD τ).loc main_arg1)) := by
  show StableHlo.after hostOps0 (W0 m ρ c) (Proc.devRef .tc main_v24) = _
  after_results <;> rfl

/-! ## After the second stretch -/

/-- The second stretch does not write the first region's output. -/
theorem W3_h (c : Dev nD) : W3 m ρ c (Proc.devRef .tc main_v25) = W2 m ρ c (Proc.devRef .tc main_v25) := by
  show StableHlo.after hostOps1 (W2 m ρ c) (Proc.devRef .tc main_v25) = _
  after_results <;> rfl
theorem W3_arg5 (c : Dev nD) : W3 m ρ c (Proc.devRef .tc main_arg5) = m ((c : Thread nD τ).loc main_arg5) := by
  have h : W3 m ρ c (Proc.devRef .tc main_arg5) = W2 m ρ c (Proc.devRef .tc main_arg5) := by
    show StableHlo.after hostOps1 (W2 m ρ c) (Proc.devRef .tc main_arg5) = _
    after_results <;> rfl
  rw [h, W2_of_ne m ρ c main_arg5 (by decide), W1_arg5]
theorem W3_arg6 (c : Dev nD) : W3 m ρ c (Proc.devRef .tc main_arg6) = m ((c : Thread nD τ).loc main_arg6) := by
  have h : W3 m ρ c (Proc.devRef .tc main_arg6) = W2 m ρ c (Proc.devRef .tc main_arg6) := by
    show StableHlo.after hostOps1 (W2 m ρ c) (Proc.devRef .tc main_arg6) = _
    after_results <;> rfl
  rw [h, W2_of_ne m ρ c main_arg6 (by decide), W1_arg6]
theorem W3_arg7 (c : Dev nD) : W3 m ρ c (Proc.devRef .tc main_arg7) = m ((c : Thread nD τ).loc main_arg7) := by
  have h : W3 m ρ c (Proc.devRef .tc main_arg7) = W2 m ρ c (Proc.devRef .tc main_arg7) := by
    show StableHlo.after hostOps1 (W2 m ρ c) (Proc.devRef .tc main_arg7) = _
    after_results <;> rfl
  rw [h, W2_of_ne m ρ c main_arg7 (by decide), W1_arg7]

/-- The second stretch computes the neighbour mean of the first region's output, over the edge rows and the reciprocal
    degrees the first stretch left. -/
theorem W3_mean (c : Dev nD) : W3 m ρ c (Proc.devRef .tc main_v37)
    = meanMul (W2 m ρ c (Proc.devRef .tc main_v25)) (m ((c : Thread nD τ).loc main_arg1)) := by
  show StableHlo.after hostOps1 (W2 m ρ c) (Proc.devRef .tc main_v37) = _
  after_results
  rw [W2_of_ne m ρ c main_v1 (by decide), W2_of_ne m ρ c main_v3 (by decide), W2_of_ne m ρ c main_v12 (by decide),
    W1_v1, W1_v3, W1_v12]
  rfl

end Cert.KernelIdeal.HostK

end
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibKeepdims.lean ====
import Idealize.ShloMosaic.PureOps.Ideal.Laws
import Idealize.ShloMosaic.Lib.ValueIdx
import Idealize.ShloMosaic.Lib.Pipeline.Value

/-!
# A sum over the last axis kept as a column, read at an entry

`jnp.sum(x, axis=-1, keepdims=True)` of an `[a, b]` array lowers to three vector operations: a reduction over axis 1
into `[a]`, a shape cast of that vector to the column `[a, 1]`, and, where the column meets the array again, a broadcast
of the column along its unit axis back to `[a, b]`. Each is read here at an index written by coordinates: the column at
`(i, u)` is the vector at `i`, the broadcast at `(i, j)` is the column at `(i, 0)`, and on the extended reals the
reduction at `i` is the sum over `k` of the array at `(i, k)`.
-/

noncomputable section

namespace Cert.LibKeepdims

open Idealize.ShloMosaic Idealize.ShloMosaic.ValueIdx

variable {α : Type}

/-- An `[a]` vector cast to the column `[a, 1]` reads, at `(i, u)`, the vector at `i`: the row-major position of
    `(i, u)` in `[a, 1]` is `i · 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- On the extended reals a `vector.multi_reduction <add>` of an `[a, b]` array over axis 1, started from the zero word,
    is at `i` the sum over `k` of the array at `(i, k)`. The neutrality evidence is typed as a printed body carries it
    (an equation between the two zero words). -/
theorem rowSum_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

end Cert.LibKeepdims

end
-- ==== Proof.LibDenseDefs.lean ====
import Idealize.ShloMosaic.PureOps.Ideal
import Idealize.ShloMosaic.Lib.ValueIdx

/-!
# Dense layers on rows of extended reals: the definitions

A dense layer sends the rows of an `M × K` array `x` to `x · w + b`: entry `(r, q)` is `∑ k, x[r, k] · w[k, q] + b[q]`
(`lin`). `relu x = max x 0`; `cat` joins two arrays along the columns. All at an arbitrary number of rows.
-/

noncomputable section

namespace Cert.LibDense

open Idealize.ShloMosaic Idealize.ShloMosaic.ValueIdx

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- `max x 0`. -/
def relu (x : EReal) : EReal := max x 0

/-- `relu` entry by entry, over any index type. -/
def reluM {ι : Type} (x : ι → EReal) : ι → EReal := fun i => relu (x i)

/-- The dense layer `x · w + b`: entry `(r, q)` is `∑ k, x[r, k] · w[k, q] + b[q]`. -/
def lin {M K N : Nat} (x : Mat M K) (w : Mat K N) (b : Row N) : Mat M N :=
  fun i => (∑ k : Fin K, x (ix2 (i 0) k) * w (ix2 k (i 1))) + b (ix1 (i 1))

/-- Two arrays side by side: columns `0 … A-1` are `s`'s, columns `A … A+B-1` are `d`'s. -/
def cat {M A B : Nat} (s : Mat M A) (d : Mat M B) : Mat M (A + B) :=
  fun i => if h : (i 1).val < A then s (ix2 (i 0) ⟨(i 1).val, h⟩)
    else d (ix2 (i 0) ⟨(i 1).val - A, by have := (i 1).isLt; change (i 1).val < A + B at this; omega⟩)

theorem lin_apply {M K N : Nat} (x : Mat M K) (w : Mat K N) (b : Row N) (r : Fin M) (q : Fin N) :
    lin x w b (ix2 r q) = (∑ k : Fin K, x (ix2 r k) * w (ix2 k q)) + b (ix1 q) := rfl

end Cert.LibDense

end
-- ==== Proof.LibLayout.lean ====
import proofs.«104940_j22411139350784_1_alg».proof.Proof.LibDenseDefs
import Idealize.ShloMosaic.PureOps.Ideal.Laws
import Idealize.ShloMosaic.Lib.ValueLayout
import Idealize.ShloMosaic.Lib.Pipeline.Value
import Idealize.ShloMosaic.Lib.StableHlo.Predicate

/-!
# Bias, `relu` and the column join, in the host's spelling and in a kernel's, read at an entry

* the bias of a row vector, as the host spells it (`broadcast_in_dim` twice: `[N] → [1, N] → [M, N]`) and as a kernel
  spells it (`shape_cast` to `[1, N]`, `broadcast` to `[M, N]`): both are `b[q]` at `(p, q)`;
* `max · 0` against the zero splat, in the host's and in a kernel's spelling: `relu` entry by entry;
* `concatenate` of two arrays along the columns: `cat`.
-/

noncomputable section

namespace Cert.LibDense

open Idealize.ShloMosaic Idealize.ShloMosaic.ValueIdx

/-! ## The bias read at an entry -/

/-- The host's bias: a row vector broadcast `[N] → [1, N] → [M, N]` reads `b[q]` at `(p, q)`. -/
theorem hostBias_apply {α : Type} (M N : Nat) (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → α) (p : Fin M) (q : Fin N) :
    broadcastInDim ⟨2, ![M, N]⟩ ![0, 1] h₂ (broadcastInDim ⟨2, ![1, N]⟩ ![1] h₁ b) (ix2 p q) = b (ix1 q) := by
  -- the two spellings of the index (p, q), and of the index q, are the same function of the coordinate
  have e2 : (ix2 p q : (⟨2, ![M, N]⟩ : Shape).Idx) = StableHlo.Predicate.ij p q := by
    funext a; match a with | ⟨0, _⟩ => rfl | ⟨1, _⟩ => rfl
  have e1 : (ix1 q : (⟨1, ![N]⟩ : Shape).Idx) = Shape.Idx.ofFin q := by
    funext a; match a with | ⟨0, _⟩ => rfl
  rw [e2, e1]
  exact StableHlo.Predicate.bcast_cols h₁ h₂ b p q

/-- A kernel's bias: a row vector shape-cast to `[1, N]` and broadcast to `[M, N]` reads `b[q]` at `(p, q)`. -/
theorem kernBias_apply {α : Type} (M N : Nat) (hc : (⟨1, ![N]⟩ : Shape).ShapeCasts ⟨2, ![1, N]⟩)
    (hb : (⟨2, ![1, N]⟩ : Shape).Broadcasts ⟨2, ![M, N]⟩) (b : (⟨1, ![N]⟩ : Shape).Idx → α) (p : Fin M) (q : Fin N) :
    broadcastTo ⟨2, ![M, N]⟩ (shapeCast ⟨2, ![1, N]⟩ b hc) hb (ix2 p q) = b (ix1 q) := by
  have hq := q.isLt
  -- the broadcast reads the [1, N] row at (0, q): axis 0 of the row is a unit axis, axis 1 keeps the column
  refine (broadcastTo_apply (shapeCast ⟨2, ![1, N]⟩ b hc) hb (ix2 p q) (ix2 (0 : Fin 1) q) ?_).trans ?_
  · intro a
    match a with
    | ⟨0, _⟩ => exact (if_pos rfl).symm
    | ⟨1, _⟩ =>
      show q.val = if N = 1 then 0 else q.val
      split
      · omega
      · rfl
  -- the shape cast keeps the row-major position: 0 * N + q = q
  · refine shapeCast_apply b hc (ix2 (0 : Fin 1) q) (ix1 q) ?_
    rw [Shape.rowMajor_val_one, Shape.rowMajor_val_two]
    show q.val = 0 * N + q.val
    omega

/-! ## `relu` in the two spellings -/

/-- The host's `maximum(x, broadcast(0.0))` is `relu` entry by entry. -/
theorem hostRelu_eq {s : Shape} (h : (⟨0, ![]⟩ : Shape).BroadcastsInDim s ![]) (x : FVec Ideal s .f32) :
    maximumf x (broadcastInDim s ![] h (constant (F := Ideal) (⟨0, ![]⟩ : Shape) .f32 0x00000000#32)) = reluM x := by
  funext i
  show max (x i) (broadcastInDim s ![] h (constant (F := Ideal) (⟨0, ![]⟩ : Shape) .f32 0x00000000#32) i) = relu (x i)
  rw [StableHlo.Predicate.bcast_scalar h (by decide) _ i, constant_apply, Ideal.ofBits_zero_f32]
  rfl

/-- A kernel's `maximumf(x, broadcast 0.0)` is `relu` entry by entry. -/
theorem kernRelu_eq {s : Shape} (x : FVec Ideal s .f32) :
    maximumf x (broadcast s (Scalar.ofBits (F := Ideal) .f32 0x00000000#32)) = reluM x := by
  funext i
  show max (x i) (Ideal.ofBits .f32 0x00000000#32) = relu (x i)
  rw [Ideal.ofBits_zero_f32]
  rfl

/-! ## The column join -/

/-- `concatenate` of two arrays along the columns is `cat`. -/
theorem concat_eq (M A B : Nat) (h : Shape.Concatenates [(⟨2, ![M, A]⟩ : Shape), (⟨2, ![M, B]⟩ : Shape)] (⟨2, ![M, A + B]⟩ : Shape) 1)
    (s : Mat M A) (d : Mat M B) :
    concatenate (⟨2, ![M, A + B]⟩ : Shape) 1 [⟨(⟨2, ![M, A]⟩ : Shape), s⟩, ⟨(⟨2, ![M, B]⟩ : Shape), d⟩] h = cat s d := by
  funext i
  have hi1 : (i 1).val < A + B := (i 1).isLt
  unfold cat
  by_cases hlt : (i 1).val < A
  -- a column below A lies in the first piece, at the same coordinates
  · rw [dif_pos hlt]
    refine concatenate_pair_apply_left (1 : Fin 2) s d h i rfl (ix2 (i 0) ⟨(i 1).val, hlt⟩) ?_
    intro b
    match b with
    | ⟨0, _⟩ => rfl
    | ⟨1, _⟩ => rfl
  -- a column at or past A lies in the second piece, A columns to the left
  · rw [dif_neg hlt]
    refine concatenate_pair_apply_right (1 : Fin 2) s d h i rfl rfl (ix2 (i 0) ⟨(i 1).val - A, by omega⟩) ?_ ?_
    · intro b hb
      match b, hb with
      | ⟨0, _⟩, _ => rfl
      | ⟨1, _⟩, hb => exact absurd rfl hb
    · show (i 1).val - A + A = (i 1).val
      omega

end Cert.LibDense

end
-- ==== Proof.KPay0.lean ====
/-
  The first layer's kernel body at an entry: what the body stores at row `r`, column `q` of its tile is the first
  layer's value there, as a function of the tile's rows of the two input blocks, the weights and the bias.
-/
import proofs.«104940_j22411139350784_1_alg».proof.Proof.Gen.KernelIdeal.Skeleton
import proofs.«104940_j22411139350784_1_alg».proof.Proof.Spec
import proofs.«104940_j22411139350784_1_alg».proof.Proof.LibContract
import proofs.«104940_j22411139350784_1_alg».proof.Proof.LibKeepdims
import proofs.«104940_j22411139350784_1_alg».proof.Proof.LibLayout

noncomputable section

namespace Cert.KernelIdeal.Pay

open Idealize.ShloMosaic Idealize.ShloMosaic.ValueIdx Cert.KernelIdeal Cert.KernelIdeal.Gen

/-! ## The stages that are not entry by entry, each read at an entry -/

/-- A product of the rounded operands into the zero tile: on the extended reals the rounding is the identity and the
    product at `(r, q)` is the sum over `k` of `a[r, k] · w[k, q]`. -/
theorem prod_apply (a : FVec Ideal S4000x128 .f32) (w : FVec Ideal S128x128 .f32) (r : Fin 4000) (q : Fin 128) :
    matmul dot_S4000x128_S128x128_S4000x128_1_0_0_1_n_n none
        (truncf .bf16 a Facts₀.bitsLt_bf16_f32) (truncf .bf16 w Facts₀.bitsLt_bf16_f32)
        (constant (F := Ideal) S4000x128 .f32 0x00000000#32) (ix2 r q)
      = ∑ k : Fin 128, a (ix2 r k) * w (ix2 k q) :=
  Cert.LibDense.matmul_plain_zero_apply 4000 128 128 none
    (truncf .bf16 a Facts₀.bitsLt_bf16_f32) (truncf .bf16 w Facts₀.bitsLt_bf16_f32) r q

/-- The bias row laid over the tile reads `b[q]` at `(r, q)`. -/
theorem bias_apply (b : FVec Ideal S128 .f32) (r : Fin 4000) (q : Fin 128) :
    broadcastTo S4000x128 (shapeCast S1x128 b Facts₀.shapeCasts_S128_S1x128) Facts₀.broadcasts_S1x128_S4000x128 (ix2 r q)
      = b (ix1 q) :=
  Cert.LibDense.kernBias_apply 4000 128 _ _ b r q

/-- The sum of the squares along a row, at row `r`. -/
theorem sqSum_apply (o : FVec Ideal S4000x128 .f32) (r : Fin 4000) :
    multiReduction .add [1] S4000 (mulf o o) 0x00000000#32 Facts₀.reduces_S4000x128_S4000 (.inl rfl) rfl (ix1 r)
      = ∑ k : Fin 128, o (ix2 r k) * o (ix2 r k) :=
  Cert.LibKeepdims.rowSum_apply (mulf o o) 0x00000000#32 Facts₀.reduces_S4000x128_S4000 (.inl rfl) rfl r

/-- The floored root of a per-row quantity, kept as a column and laid back over the tile: at `(r, q)` it is the
    larger of the root of the quantity at `r` and the floor. -/
theorem lenTile_apply (s : FVec Ideal S4000 .f32) (r : Fin 4000) (q : Fin 128) :
    broadcastTo S4000x128
        (maximumf (sqrt (shapeCast S4000x1 s Facts₀.shapeCasts_S4000_S4000x1))
          (broadcast S4000x1 (Scalar.ofBits (F := Ideal) .f32 0x2B8CBCCC#32)))
        Facts₀.broadcasts_S4000x1_S4000x128 (ix2 r q)
      = max (Ideal.sqrt (s (ix1 r))) (Ideal.ofBits .f32 0x2B8CBCCC#32) := by
  refine (Cert.LibKeepdims.broadcastTo_a1_ab_apply _ _ r q).trans ?_
  show max (Ideal.sqrt (shapeCast S4000x1 s Facts₀.shapeCasts_S4000_S4000x1 (ix2 r (0 : Fin 1)))) _ = _
  rw [Cert.LibKeepdims.shapeCast_a_a1_apply]
  rfl

/-- The pre-activation tile at an entry: the two products added, then the bias row, is the row's pre-activation. -/
theorem preTile_apply (xm xx : FVec Ideal S4000x128 .f32) (wl wr : FVec Ideal S128x128 .f32) (b : FVec Ideal S128 .f32)
    (r : Fin 4000) (k : Fin 128) :
    addf
        (addf
          (matmul dot_S4000x128_S128x128_S4000x128_1_0_0_1_n_n none
            (truncf .bf16 (shapeCast S4000x128 xm Facts₀.shapeCasts_S4000x128_S4000x128) Facts₀.bitsLt_bf16_f32)
            (truncf .bf16 wl Facts₀.bitsLt_bf16_f32) (constant (F := Ideal) S4000x128 .f32 0x00000000#32))
          (matmul dot_S4000x128_S128x128_S4000x128_1_0_0_1_n_n none (truncf .bf16 xx Facts₀.bitsLt_bf16_f32)
            (truncf .bf16 wr Facts₀.bitsLt_bf16_f32) (constant (F := Ideal) S4000x128 .f32 0x00000000#32)))
        (broadcastTo S4000x128 (shapeCast S1x128 b Facts₀.shapeCasts_S128_S1x128) Facts₀.broadcasts_S1x128_S4000x128)
        (ix2 r k)
      = Cert.Sage.pre (Cert.Sage.row xm r) (Cert.Sage.row xx r) wl b wr k := by
  refine (addf_apply _ _ _).trans ?_
  refine (congrArg₂ (· + ·) ((addf_apply _ _ _).trans (congrArg₂ (· + ·) (prod_apply _ wl r k) (prod_apply xx wr r k)))
    (bias_apply b r k)).trans ?_
  rw [shapeCast_self]
  rfl

/-- The stored tile of the first layer's body, entry by entry. -/
theorem pay0_apply (xm xx : Vec Ideal S4000x128 .f32) (wl wr : Vec Ideal S128x128 .f32) (b : Vec Ideal S128 .f32)
    (r : Fin 4000) (q : Fin 128) :
    k0_pay1 (F := Ideal) xm xx wl wr b (ix2 r q)
      = Cert.Sage.hidden (M := 4000) (K := 128) (N := 128) xm xx wl b wr (ix2 r q) := by
  rw [Cert.Sage.hidden_apply]
  unfold k0_pay1
  refine (maximumf_apply _ _ _).trans ?_
  rw [divf_apply, broadcast_apply, lenTile_apply, sqSum_apply]
  simp only [preTile_apply]
  -- the two sides are the clamp of the same quotient; the zero word denotes the zero of the extended reals
  exact congrArg₂ max rfl Ideal.ofBits_zero_f32

end Cert.KernelIdeal.Pay

end
-- ==== Proof.KArr0.lean ====
/-
  The first region's output array after the run: the first layer of the arrays the region is entered with. Each grid
  point writes back a tile of 4000 rows; tile `t` holds rows `4000·t … 4000·t + 3999`, the 25 tiles cover the array,
  and a tile of the layer is the layer of the tiles of its inputs.
-/
import proofs.«104940_j22411139350784_1_alg».proof.Proof.Gen.KernelIdeal.Frame
import proofs.«104940_j22411139350784_1_alg».proof.Proof.KPay0
import Idealize.ShloMosaic.Lib.Pipeline.Value

noncomputable section

namespace Cert.KernelIdeal.Arr

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The offsets of an access to a whole two-axis buffer are zero on both axes. -/
theorem zero2 : (![0, 0] : Fin 2 → Nat) = fun _ => 0 :=
  funext fun a => by match a with | ⟨0, _⟩ => rfl | ⟨1, _⟩ => rfl

/-- The offset of an access to a whole one-axis buffer is zero. -/
theorem zero1 : (![0] : Fin 1 → Nat) = fun _ => 0 :=
  funext fun a => by match a with | ⟨0, _⟩ => rfl

/-- The tile indices over the 25 grid points: the two node arrays and the output are cut into row tiles, point `t`
    taking tile `(t, 0)`; the two weights and the bias are taken whole, tile `(0, 0)` resp. `(0)` at every point. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of tile `t` of the aggregated-neighbour array is row `4000·t + r` of the array. -/
theorem mean_row (c : Dev nD) (t : Fin cfg0.N) (r : Fin 4000) (h : 4000 * t.val + r.val < 100000) :
    Cert.Sage.row (M := 4000) (K := 128) (iblk0 V c 0 t) r
      = Cert.Sage.row (M := 100000) (K := 128) (V c main_v24) ⟨4000 * t.val + r.val, h⟩ := by
  obtain ⟨e0, e1, -⟩ := tile_index t
  funext k
  show V c main_v24 (((cfg0.win 0).blk t).view.emb (ix2 r k)) = V c main_v24 (ix2 ⟨4000 * t.val + r.val, h⟩ k)
  refine congrArg (V c main_v24) ?_
  funext a
  apply Fin.ext
  match a with
  | ⟨0, _⟩ => show win0_0.index t (0 : Fin 2) * 4000 + 1 * r.val = 4000 * t.val + r.val; omega
  | ⟨1, _⟩ => show win0_0.index t (1 : Fin 2) * 128 + 1 * k.val = k.val; omega

/-- Row `r` of tile `t` of the node array is row `4000·t + r` of the array. -/
theorem node_row (c : Dev nD) (t : Fin cfg0.N) (r : Fin 4000) (h : 4000 * t.val + r.val < 100000) :
    Cert.Sage.row (M := 4000) (K := 128) (iblk0 V c 1 t) r
      = Cert.Sage.row (M := 100000) (K := 128) (V c main_arg0) ⟨4000 * t.val + r.val, h⟩ := by
  obtain ⟨-, -, e0, e1, -⟩ := tile_index t
  funext k
  show V c main_arg0 (((cfg0.win 1).blk t).view.emb (ix2 r k)) = V c main_arg0 (ix2 ⟨4000 * t.val + r.val, h⟩ k)
  refine congrArg (V c main_arg0) ?_
  funext a
  apply Fin.ext
  match a with
  | ⟨0, _⟩ => show win0_1.index t (0 : Fin 2) * 4000 + 1 * r.val = 4000 * t.val + r.val; omega
  | ⟨1, _⟩ => show win0_1.index t (1 : Fin 2) * 128 + 1 * k.val = k.val; omega

/-- The left weight's tile at every point is the whole weight. -/
theorem wl_whole (c : Dev nD) (t : Fin cfg0.N) : (iblk0 V c 2 t : Vec Ideal S128x128 .f32) = V c main_arg2 := by
  obtain ⟨-, -, -, -, e0, e1, -⟩ := tile_index t
  funext j
  show V c main_arg2 (((cfg0.win 2).blk t).view.emb j) = V c main_arg2 j
  refine congrArg (V c main_arg2) ?_
  funext a
  apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- The bias's tile at every point is the whole bias. -/
theorem bias_whole (c : Dev nD) (t : Fin cfg0.N) : (iblk0 V c 3 t : Vec Ideal S128 .f32) = V c main_arg3 := by
  obtain ⟨-, -, -, -, -, -, e0, -⟩ := tile_index t
  funext j
  show V c main_arg3 (((cfg0.win 3).blk t).view.emb j) = V c main_arg3 j
  refine congrArg (V c main_arg3) ?_
  funext a
  apply Fin.ext
  match a with
  | ⟨0, _⟩ => show win0_3.index t (0 : Fin 1) * 128 + 1 * (j 0).val = (j 0).val; omega

/-- The right weight's tile at every point is the whole weight. -/
theorem wr_whole (c : Dev nD) (t : Fin cfg0.N) : (iblk0 V c 4 t : Vec Ideal S128x128 .f32) = V c main_arg4 := by
  obtain ⟨-, -, -, -, -, -, -, e0, e1, -⟩ := tile_index t
  funext j
  show V c main_arg4 (((cfg0.win 4).blk t).view.emb j) = V c main_arg4 j
  refine congrArg (V c main_arg4) ?_
  funext a
  apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- An entry of the body's result on a tile is the first layer of the arrays at the row the tile's row is: the body
    computes the layer of its tiles, and a row of the layer depends on the two node arrays through that row only. -/
theorem tile_entry (xm xx : Vec Ideal S4000x128 .f32) (wl wr : Vec Ideal S128x128 .f32) (b : Vec Ideal S128 .f32)
    (am ax : Vec Ideal S100000x128 .f32) (r : Fin 4000) (q : Fin 128) (R : Fin 100000)
    (hm : Cert.Sage.row (M := 4000) (K := 128) xm r = Cert.Sage.row (M := 100000) (K := 128) am R)
    (hx : Cert.Sage.row (M := 4000) (K := 128) xx r = Cert.Sage.row (M := 100000) (K := 128) ax R) :
    k0_pay1 (F := Ideal) xm xx wl wr b (ix2 r q)
      = Cert.Sage.hidden (M := 100000) (K := 128) (N := 128) am ax wl b wr (ix2 R q) :=
  (Cert.KernelIdeal.Pay.pay0_apply xm xx wl wr b r q).trans
    (Cert.Sage.hidden_congr_row (M := 4000) (M' := 100000) (K := 128) (N := 128) xm xx am ax wl b wr r R q hm hx)

/-- What point `t` writes back is tile `t` of the first layer of the arrays the region is entered with. -/
theorem flushed_eq (c : Dev nD) (t : Fin cfg0.N) :
    (dat0 (F := Ideal) V c).flushed 5 t
      = ((cfg0.win 5).blk t).view.read (Elt Ideal)
          (Cert.Sage.hidden (M := 100000) (K := 128) (N := 128) (V c main_v24) (V c main_arg0) (V c main_arg2) (V c main_arg3) (V c main_arg4)) := by
  show (cfg0.win 5).cut (grid0.coords t) ((dat0 V c).after 5 t) = _
  rw [after0_5]
  unfold out0_5
  rw [View.canon_unit_zero zero2]
  simp only [View.ld_unit_zero (S := S4000x128) zero2, View.ld_unit_zero (S := S128x128) zero2, View.ld_unit_zero (S := S128) zero1]
  rw [wl_whole V c t, bias_whole V c t, wr_whole V c t]
  obtain ⟨-, -, -, -, -, -, -, -, -, e0, e1⟩ := tile_index t
  have ht : t.val < 25 := t.isLt
  funext j
  obtain ⟨r, q, rfl⟩ : ∃ (r : Fin 4000) (q : Fin 128), j = ix2 r q := ⟨j 0, j 1, eq_ix2 j⟩
  have hr : 4000 * t.val + r.val < 100000 := by have := r.isLt; omega
  have he : ((cfg0.win 5).blk t).view.emb (ix2 r q) = ix2 (⟨4000 * t.val + r.val, hr⟩ : Fin 100000) q := by
    funext a
    apply Fin.ext
    match a with
    | ⟨0, _⟩ => show win0_5.index t (0 : Fin 2) * 4000 + 1 * r.val = 4000 * t.val + r.val; omega
    | ⟨1, _⟩ => show win0_5.index t (1 : Fin 2) * 128 + 1 * q.val = q.val; omega
  show k0_pay1 (F := Ideal) (iblk0 V c 0 t) (iblk0 V c 1 t) (V c main_arg2) (V c main_arg4) (V c main_arg3) (ix2 r q)
      = Cert.Sage.hidden (M := 100000) (K := 128) (N := 128) (V c main_v24) (V c main_arg0) (V c main_arg2) (V c main_arg3) (V c main_arg4)
          (((cfg0.win 5).blk t).view.emb (ix2 r q))
  rw [he]
  exact tile_entry (iblk0 V c 0 t) (iblk0 V c 1 t) (V c main_arg2) (V c main_arg4) (V c main_arg3) (V c main_v24) (V c main_arg0)
    r q ⟨4000 * t.val + r.val, hr⟩ (mean_row V c t r hr) (node_row V c t r hr)

/-- An index of the output array is in point `t`'s tile iff each coordinate is in the tile's range on its axis. -/
theorem mem_tile (t : Fin cfg0.N) (i : S100000x128.Idx) :
    i ∈ ((cfg0.win 5).blk t).view.set
      ↔ ∀ a : Fin 2, win0_5.index t a * S4000x128.size a ≤ (i a).val ∧ (i a).val < win0_5.index t a * S4000x128.size a + S4000x128.size a := by
  show i ∈ ((View.whole main_v25).slice (win0_5.rect t)).set ↔ _
  rw [View.set_slice_whole, Rect.mem_set_unit]
  exact Iff.rfl

/-- Every tile is some point's: point `n` takes tile `(n, 0)`. -/
theorem tile_onto : ∀ n : Fin 25, ∃ t : Fin cfg0.N, win0_5.index t (0 : Fin 2) = n.val ∧ win0_5.index t (1 : Fin 2) = 0 :=
  (by decide +kernel : ∀ n : Fin 25, ∃ t : Fin grid0.N, win0_5.index t (0 : Fin 2) = n.val ∧ win0_5.index t (1 : Fin 2) = 0)

/-- The 25 tiles cover the output array: row `i` is in tile `i / 4000`. -/
theorem tiles_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, q0, q1⟩ := tile_onto ⟨(i 0).val / 4000, by omega⟩
  have q0' : win0_5.index t (0 : Fin 2) = (i 0).val / 4000 := q0
  refine ⟨t, flush0_5 t, ?_⟩
  rw [mem_tile]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- The first region's output array, whole, after its 25 write-backs. -/
theorem arr0 (c : Dev nD) :
    (dat0 (F := Ideal) V c).arrAt 5 cfg0.N
      = Cert.Sage.hidden (M := 100000) (K := 128) (N := 128) (V c main_v24) (V c main_arg0) (V c main_arg2) (V c main_arg3) (V c main_arg4) :=
  (dat0 (F := Ideal) V c).arrAt_eq_of_cover 5
    (Cert.Sage.hidden (M := 100000) (K := 128) (N := 128) (V c main_v24) (V c main_arg0) (V c main_arg2) (V c main_arg3) (V c main_arg4))
    (fun t _ => flushed_eq V c t) tiles_cover

end Cert.KernelIdeal.Arr

end
-- ==== Proof.LibRowFold.lean ====
import Idealize.ShloMosaic.PureOps.Ideal.Laws
import Idealize.ShloMosaic.Lib.ValueIdx
import Idealize.ShloMosaic.Lib.Pipeline.Value

/-!
# A tile with two leading unit axes, and a row's maximum as a fold

A pipelined kernel that squeezes the batch and head axes of a rank-4 array sees each block as `[1, 1, a, b]` and casts it
to the matrix `[a, b]` on the way in and back on the way out: the matrix at `(i, j)` is the block at `(0, 0, i, j)`.
A `vector.multi_reduction <maximumf>` of an `[a, b]` matrix over axis 1 is, on the extended reals, at row `i` the fold of
`max` over the row's entries, started from the accumulator's value.
-/

noncomputable section

namespace Cert.LibRowFold

open Idealize.ShloMosaic Idealize.ShloMosaic.ValueIdx

variable {α : Type}

/-- A `[1, 1, a, b]` block cast to the matrix `[a, b]` reads, at `(i, j)`, the block at `(0, 0, i, j)`: both sit at
    row-major position `i · b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- The matrix `[a, b]` cast to a `[1, 1, a, b]` block reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one, Nat.add_zero])

/-- On the extended reals a `vector.multi_reduction <maximumf>` of an `[a, b]` matrix over axis 1 is, at row `i`, the
    fold of `max` from the accumulator's value over the entries `(i, k)` of the row. -/
theorem rowMax_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f) (funext fun k => ?_)
  refine congrArg src (funext fun ax => Fin.ext ?_)
  match ax with
  | ⟨0, _⟩ => rfl
  | ⟨1, _⟩ => rfl

end Cert.LibRowFold

end
-- ==== Proof.KPay1.lean ====
/-
  The second layer's kernel body at an entry: what the body stores at row `r`, column `q` of its tile is the second
  layer's value there, as a function of the tile's rows of the two input blocks, the weights and the bias.

  The stored tile is a composition of three maps on tiles: the pre-activation `xm · Wl + xx · Wr + b`, the division of
  every row by its floored Euclidean length, and the log-softmax of every row. Each is read at an entry and met with
  the row-by-row statement of the layer.
-/
import proofs.«104940_j22411139350784_1_alg».proof.Proof.Gen.KernelIdeal.Skeleton
import proofs.«104940_j22411139350784_1_alg».proof.Proof.Spec
import proofs.«104940_j22411139350784_1_alg».proof.Proof.LibContract
import proofs.«104940_j22411139350784_1_alg».proof.Proof.LibKeepdims
import proofs.«104940_j22411139350784_1_alg».proof.Proof.LibLayout
import proofs.«104940_j22411139350784_1_alg».proof.Proof.LibRowFold

noncomputable section

namespace Cert.KernelIdeal.Pay

open Idealize.ShloMosaic Idealize.ShloMosaic.ValueIdx Cert.KernelIdeal Cert.KernelIdeal.Gen

namespace Second

/-! ## The three maps the stored tile is composed of -/

/-- The pre-activation tile: the two products into the zero tile, added, plus the bias row on every row. -/
def preT (xm xx : Vec Ideal S4000x128 .f32) (wl wr : Vec Ideal S128x40 .f32) (b : Vec Ideal S40 .f32) :
    FVec Ideal S4000x40 .f32 :=
  addf
    (addf
      (matmul dot_S4000x128_S128x40_S4000x40_1_0_0_1_n_n none
        (truncf .bf16 (shapeCast S4000x128 xm shapeCasts_S4000x128_S4000x128) bitsLt_bf16_f32)
        (truncf .bf16 wl bitsLt_bf16_f32) (constant S4000x40 .f32 0x00000000#32))
      (matmul dot_S4000x128_S128x40_S4000x40_1_0_0_1_n_n none
        (truncf .bf16 (shapeCast S4000x128 xx shapeCasts_S4000x128_S4000x128) bitsLt_bf16_f32)
        (truncf .bf16 wr bitsLt_bf16_f32) (constant S4000x40 .f32 0x00000000#32)))
    (broadcastTo S4000x40 (shapeCast S1x40 b shapeCasts_S40_S1x40) broadcasts_S1x40_S4000x40)

/-- Every row divided by its floored length: the squares summed along the row, kept as a column, its root floored,
    the column spread back over the row, the tile divided by it. -/
def unitT (o : FVec Ideal S4000x40 .f32) : FVec Ideal S4000x40 .f32 :=
  divf o
    (broadcastTo S4000x40
      (maximumf
        (sqrt (shapeCast S4000x1
          (multiReduction .add [1] S4000 (mulf o o) 0x00000000#32 reduces_S4000x40_S4000 (.inl rfl) rfl)
          shapeCasts_S4000_S4000x1))
        (broadcast S4000x1 (Scalar.ofBits (F := Ideal) .f32 0x2B8CBCCC#32)))
      broadcasts_S4000x1_S4000x40)

/-- A tile minus its rows' maxima. -/
def shiftT (z : FVec Ideal S4000x40 .f32) : FVec Ideal S4000x40 .f32 :=
  subf z
    (broadcastTo S4000x40
      (shapeCast S4000x1
        (multiReduction .maximumf [1] S4000 z 0xFF800000#32 reduces_S4000x40_S4000 (.inl rfl) rfl)
        shapeCasts_S4000_S4000x1)
      broadcasts_S4000x1_S4000x40)

/-- A tile minus the logarithm of its rows' sums of exponentials. -/
def normT (d : FVec Ideal S4000x40 .f32) : FVec Ideal S4000x40 .f32 :=
  subf d
    (broadcastTo S4000x40
      (log (shapeCast S4000x1
        (multiReduction .add [1] S4000 (exp d) 0x00000000#32 reduces_S4000x40_S4000 (.inl rfl) rfl)
        shapeCasts_S4000_S4000x1))
      broadcasts_S4000x1_S4000x40)

/-- The stored tile is the composition. -/
theorem k1_pay1_eq (xm xx : Vec Ideal S4000x128 .f32) (wl wr : Vec Ideal S128x40 .f32) (b : Vec Ideal S40 .f32) :
    k1_pay1 (F := Ideal) xm xx wl wr b = normT (shiftT (unitT (preT xm xx wl wr b))) := rfl

/-! ## The pointwise root, exponential and logarithm read at an index -/

theorem sqrt_apply {s : Shape} {φ : FTy} (x : FVec Ideal s φ) (i : s.Idx) : sqrt x i = Ideal.sqrt (x i) := rfl

theorem exp_apply {s : Shape} {φ : FTy} (x : FVec Ideal s φ) (i : s.Idx) : exp x i = Ideal.exp (x i) := rfl

theorem log_apply {s : Shape} {φ : FTy} (x : FVec Ideal s φ) (i : s.Idx) : log x i = Ideal.log (x i) := rfl

/-! ## The pre-activation at an entry -/

/-- A product of a `4000 × 128` tile and a `128 × 40` matrix into the zero tile: at `(r, q)` the sum over `k` of
    `a[r, k] · w[k, q]` (the contraction is the plain one: left axis 1 against right axis 0). -/
theorem mm_apply (a : FVec Ideal S4000x128 .bf16) (w : FVec Ideal S128x40 .bf16) (r : Fin 4000) (q : Fin 40) :
    matmul dot_S4000x128_S128x40_S4000x40_1_0_0_1_n_n none a w (constant (F := Ideal) S4000x40 .f32 0x00000000#32) (ix2 r q)
      = ∑ k : Fin 128, a (ix2 r k) * w (ix2 k q) :=
  Cert.LibDense.matmul_plain_zero_apply 4000 128 40 none a w r q

/-- The pre-activation tile at `(r, q)` is the pre-activation of row `r` of the two blocks at `q`: the narrowing casts are
    the identity on the extended reals, the cast of a tile to its own shape is the identity, and the bias row is read
    at its column. -/
theorem preT_apply (xm xx : Vec Ideal S4000x128 .f32) (wl wr : Vec Ideal S128x40 .f32) (b : Vec Ideal S40 .f32)
    (r : Fin 4000) (q : Fin 40) :
    preT xm xx wl wr b (ix2 r q) = Cert.Sage.pre (Cert.Sage.row xm r) (Cert.Sage.row xx r) wl b wr q := by
  unfold preT
  rw [addf_apply, addf_apply, mm_apply, mm_apply, Cert.LibDense.kernBias_apply, shapeCast_self, shapeCast_self]
  rfl

/-! ## The division by the floored length at an entry -/

theorem unitT_apply (o : FVec Ideal S4000x40 .f32) (r : Fin 4000) (q : Fin 40) :
    unitT o (ix2 r q) = Cert.Sage.unit (fun k => o (ix2 r k)) q := by
  unfold unitT
  rw [divf_apply, Cert.LibKeepdims.broadcastTo_a1_ab_apply, maximumf_apply, sqrt_apply,
    Cert.LibKeepdims.shapeCast_a_a1_apply]
  exact congrArg (fun s => Ideal.div (o (ix2 r q)) (max (Ideal.sqrt s) Cert.Sage.floorLen))
    (Cert.LibKeepdims.rowSum_apply (mulf o o) 0x00000000#32 reduces_S4000x40_S4000 (.inl rfl) rfl r)

/-! ## The log-softmax at an entry -/

theorem shiftT_apply (z : FVec Ideal S4000x40 .f32) (r : Fin 4000) (q : Fin 40) :
    shiftT z (ix2 r q) = z (ix2 r q) - Cert.Sage.rowMax (fun k => z (ix2 r k)) := by
  unfold shiftT
  rw [subf_apply, Cert.LibKeepdims.broadcastTo_a1_ab_apply, Cert.LibKeepdims.shapeCast_a_a1_apply]
  exact congrArg (fun m => z (ix2 r q) - m)
    (Cert.LibRowFold.rowMax_apply z 0xFF800000#32 reduces_S4000x40_S4000 (.inl rfl) rfl r)

theorem normT_apply (d : FVec Ideal S4000x40 .f32) (r : Fin 4000) (q : Fin 40) :
    normT d (ix2 r q) = d (ix2 r q) - Ideal.log (∑ k : Fin 40, Ideal.exp (d (ix2 r k))) := by
  unfold normT
  rw [subf_apply, Cert.LibKeepdims.broadcastTo_a1_ab_apply, log_apply, Cert.LibKeepdims.shapeCast_a_a1_apply]
  exact congrArg (fun s => d (ix2 r q) - Ideal.log s)
    (Cert.LibKeepdims.rowSum_apply (exp d) 0x00000000#32 reduces_S4000x40_S4000 (.inl rfl) rfl r)

/-- The shift by the row's maximum followed by the subtraction of the log of the row's sum of exponentials is the
    log-softmax of the row. -/
theorem lsmT_apply (z : FVec Ideal S4000x40 .f32) (r : Fin 4000) (q : Fin 40) :
    normT (shiftT z) (ix2 r q) = Cert.Sage.lsm (fun k => z (ix2 r k)) q := by
  rw [normT_apply, shiftT_apply]
  unfold Cert.Sage.lsm
  refine congrArg (fun s => z (ix2 r q) - Cert.Sage.rowMax (fun k => z (ix2 r k)) - Ideal.log s) ?_
  exact Finset.sum_congr rfl fun k _ => congrArg Ideal.exp (shiftT_apply z r k)

end Second

/-- The stored tile of the second layer's body, entry by entry. -/
theorem pay1_apply (xm xx : Vec Ideal S4000x128 .f32) (wl wr : Vec Ideal S128x40 .f32) (b : Vec Ideal S40 .f32)
    (r : Fin 4000) (q : Fin 40) :
    k1_pay1 (F := Ideal) xm xx wl wr b (ix2 r q)
      = Cert.Sage.logits (M := 4000) (K := 128) (N := 40) xm xx wl b wr (ix2 r q) := by
  have ho : (fun k : Fin 40 => Second.preT xm xx wl wr b (ix2 r k))
      = Cert.Sage.pre (Cert.Sage.row xm r) (Cert.Sage.row xx r) wl b wr :=
    funext fun k => Second.preT_apply xm xx wl wr b r k
  have hz : (fun k : Fin 40 => Second.unitT (Second.preT xm xx wl wr b) (ix2 r k))
      = Cert.Sage.unit (Cert.Sage.pre (Cert.Sage.row xm r) (Cert.Sage.row xx r) wl b wr) :=
    funext fun k => (Second.unitT_apply (Second.preT xm xx wl wr b) r k).trans (congrArg (fun o => Cert.Sage.unit o k) ho)
  rw [Second.k1_pay1_eq, Second.lsmT_apply, Cert.Sage.logits_apply, hz]

end Cert.KernelIdeal.Pay

end
-- ==== Proof.KArr1.lean ====
/-
  The second region's output array after the run: the second layer of the arrays the region is entered with. Each grid
  point writes back a tile of 4000 rows; tile `t` holds rows `4000·t … 4000·t + 3999`, the 25 tiles cover the array,
  and a tile of the layer is the layer of the tiles of its inputs.
-/
import proofs.«104940_j22411139350784_1_alg».proof.Proof.Gen.KernelIdeal.Frame
import proofs.«104940_j22411139350784_1_alg».proof.Proof.KPay1
import Idealize.ShloMosaic.Lib.Pipeline.Value

noncomputable section

namespace Cert.KernelIdeal.Arr

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

namespace Layer2

/-- The offsets of an access to a whole two-axis buffer are zero on both axes. -/
theorem zero2 : (![0, 0] : Fin 2 → Nat) = fun _ => 0 :=
  funext fun a => by match a with | ⟨0, _⟩ => rfl | ⟨1, _⟩ => rfl

/-- The offset of an access to a whole one-axis buffer is zero. -/
theorem zero1 : (![0] : Fin 1 → Nat) = fun _ => 0 :=
  funext fun a => by match a with | ⟨0, _⟩ => rfl

/-- The tile indices over the 25 grid points: the two node arrays and the output are cut into row tiles, point `t`
    taking tile `(t, 0)`; the two weights and the bias are taken whole, tile `(0, 0)` resp. `(0)` at every point. -/
theorem tile_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of tile `t` of the aggregated-neighbour array is row `4000·t + r` of the array. -/
theorem mean_row (c : Dev nD) (t : Fin cfg1.N) (r : Fin 4000) (h : 4000 * t.val + r.val < 100000) :
    Cert.Sage.row (M := 4000) (K := 128) (iblk1 V c 0 t) r
      = Cert.Sage.row (M := 100000) (K := 128) (V c main_v37) ⟨4000 * t.val + r.val, h⟩ := by
  obtain ⟨e0, e1, -⟩ := tile_index t
  funext k
  show V c main_v37 (((cfg1.win 0).blk t).view.emb (ix2 r k)) = V c main_v37 (ix2 ⟨4000 * t.val + r.val, h⟩ k)
  refine congrArg (V c main_v37) ?_
  funext a
  apply Fin.ext
  match a with
  | ⟨0, _⟩ => show win1_0.index t (0 : Fin 2) * 4000 + 1 * r.val = 4000 * t.val + r.val; omega
  | ⟨1, _⟩ => show win1_0.index t (1 : Fin 2) * 128 + 1 * k.val = k.val; omega

/-- Row `r` of tile `t` of the node array (the first layer's output) is row `4000·t + r` of the array. -/
theorem node_row (c : Dev nD) (t : Fin cfg1.N) (r : Fin 4000) (h : 4000 * t.val + r.val < 100000) :
    Cert.Sage.row (M := 4000) (K := 128) (iblk1 V c 1 t) r
      = Cert.Sage.row (M := 100000) (K := 128) (V c main_v25) ⟨4000 * t.val + r.val, h⟩ := by
  obtain ⟨-, -, e0, e1, -⟩ := tile_index t
  funext k
  show V c main_v25 (((cfg1.win 1).blk t).view.emb (ix2 r k)) = V c main_v25 (ix2 ⟨4000 * t.val + r.val, h⟩ k)
  refine congrArg (V c main_v25) ?_
  funext a
  apply Fin.ext
  match a with
  | ⟨0, _⟩ => show win1_1.index t (0 : Fin 2) * 4000 + 1 * r.val = 4000 * t.val + r.val; omega
  | ⟨1, _⟩ => show win1_1.index t (1 : Fin 2) * 128 + 1 * k.val = k.val; omega

/-- The left weight's tile at every point is the whole weight. -/
theorem wl_whole (c : Dev nD) (t : Fin cfg1.N) : (iblk1 V c 2 t : Vec Ideal S128x40 .f32) = V c main_arg5 := by
  obtain ⟨-, -, -, -, e0, e1, -⟩ := tile_index t
  funext j
  show V c main_arg5 (((cfg1.win 2).blk t).view.emb j) = V c main_arg5 j
  refine congrArg (V c main_arg5) ?_
  funext a
  apply Fin.ext
  match a with
  | ⟨0, _⟩ => show win1_2.index t (0 : Fin 2) * 128 + 1 * (j 0).val = (j 0).val; omega
  | ⟨1, _⟩ => show win1_2.index t (1 : Fin 2) * 40 + 1 * (j 1).val = (j 1).val; omega

/-- The bias's tile at every point is the whole bias. -/
theorem bias_whole (c : Dev nD) (t : Fin cfg1.N) : (iblk1 V c 3 t : Vec Ideal S40 .f32) = V c main_arg6 := by
  obtain ⟨-, -, -, -, -, -, e0, -⟩ := tile_index t
  funext j
  show V c main_arg6 (((cfg1.win 3).blk t).view.emb j) = V c main_arg6 j
  refine congrArg (V c main_arg6) ?_
  funext a
  apply Fin.ext
  match a with
  | ⟨0, _⟩ => show win1_3.index t (0 : Fin 1) * 40 + 1 * (j 0).val = (j 0).val; omega

/-- The right weight's tile at every point is the whole weight. -/
theorem wr_whole (c : Dev nD) (t : Fin cfg1.N) : (iblk1 V c 4 t : Vec Ideal S128x40 .f32) = V c main_arg7 := by
  obtain ⟨-, -, -, -, -, -, -, e0, e1, -⟩ := tile_index t
  funext j
  show V c main_arg7 (((cfg1.win 4).blk t).view.emb j) = V c main_arg7 j
  refine congrArg (V c main_arg7) ?_
  funext a
  apply Fin.ext
  match a with
  | ⟨0, _⟩ => show win1_4.index t (0 : Fin 2) * 128 + 1 * (j 0).val = (j 0).val; omega
  | ⟨1, _⟩ => show win1_4.index t (1 : Fin 2) * 40 + 1 * (j 1).val = (j 1).val; omega

/-- An entry of the body's result on a tile is the second layer of the arrays at the row the tile's row is: the body
    computes the layer of its tiles, and a row of the layer depends on the two node arrays through that row only. -/
theorem tile_entry (xm xx : Vec Ideal S4000x128 .f32) (wl wr : Vec Ideal S128x40 .f32) (b : Vec Ideal S40 .f32)
    (am ax : Vec Ideal S100000x128 .f32) (r : Fin 4000) (q : Fin 40) (R : Fin 100000)
    (hm : Cert.Sage.row (M := 4000) (K := 128) xm r = Cert.Sage.row (M := 100000) (K := 128) am R)
    (hx : Cert.Sage.row (M := 4000) (K := 128) xx r = Cert.Sage.row (M := 100000) (K := 128) ax R) :
    k1_pay1 (F := Ideal) xm xx wl wr b (ix2 r q)
      = Cert.Sage.logits (M := 100000) (K := 128) (N := 40) am ax wl b wr (ix2 R q) :=
  (Cert.KernelIdeal.Pay.pay1_apply xm xx wl wr b r q).trans
    (Cert.Sage.logits_congr_row (M := 4000) (M' := 100000) (K := 128) (N := 40) xm xx am ax wl b wr r R q hm hx)

/-- What point `t` writes back is tile `t` of the second layer of the arrays the region is entered with. -/
theorem flushed_eq (c : Dev nD) (t : Fin cfg1.N) :
    (dat1 (F := Ideal) V c).flushed 5 t
      = ((cfg1.win 5).blk t).view.read (Elt Ideal)
          (Cert.Sage.logits (M := 100000) (K := 128) (N := 40) (V c main_v37) (V c main_v25) (V c main_arg5) (V c main_arg6) (V c main_arg7)) := by
  show (cfg1.win 5).cut (grid1.coords t) ((dat1 V c).after 5 t) = _
  rw [after1_5]
  unfold out1_5
  rw [View.canon_unit_zero zero2]
  simp only [View.ld_unit_zero (S := S4000x128) zero2, View.ld_unit_zero (S := S128x40) zero2, View.ld_unit_zero (S := S40) zero1]
  rw [wl_whole V c t, bias_whole V c t, wr_whole V c t]
  obtain ⟨-, -, -, -, -, -, -, -, -, e0, e1⟩ := tile_index t
  have ht : t.val < 25 := t.isLt
  funext j
  obtain ⟨r, q, rfl⟩ : ∃ (r : Fin 4000) (q : Fin 40), j = ix2 r q := ⟨j 0, j 1, eq_ix2 j⟩
  have hr : 4000 * t.val + r.val < 100000 := by have := r.isLt; omega
  have he : ((cfg1.win 5).blk t).view.emb (ix2 r q) = ix2 (⟨4000 * t.val + r.val, hr⟩ : Fin 100000) q := by
    funext a
    apply Fin.ext
    match a with
    | ⟨0, _⟩ => show win1_5.index t (0 : Fin 2) * 4000 + 1 * r.val = 4000 * t.val + r.val; omega
    | ⟨1, _⟩ => show win1_5.index t (1 : Fin 2) * 40 + 1 * q.val = q.val; omega
  show k1_pay1 (F := Ideal) (iblk1 V c 0 t) (iblk1 V c 1 t) (V c main_arg5) (V c main_arg7) (V c main_arg6) (ix2 r q)
      = Cert.Sage.logits (M := 100000) (K := 128) (N := 40) (V c main_v37) (V c main_v25) (V c main_arg5) (V c main_arg6) (V c main_arg7)
          (((cfg1.win 5).blk t).view.emb (ix2 r q))
  rw [he]
  exact tile_entry (iblk1 V c 0 t) (iblk1 V c 1 t) (V c main_arg5) (V c main_arg7) (V c main_arg6) (V c main_v37) (V c main_v25)
    r q ⟨4000 * t.val + r.val, hr⟩ (mean_row V c t r hr) (node_row V c t r hr)

/-- An index of the output array is in point `t`'s tile iff each coordinate is in the tile's range on its axis. -/
theorem mem_tile (t : Fin cfg1.N) (i : S100000x40.Idx) :
    i ∈ ((cfg1.win 5).blk t).view.set
      ↔ ∀ a : Fin 2, win1_5.index t a * S4000x40.size a ≤ (i a).val ∧ (i a).val < win1_5.index t a * S4000x40.size a + S4000x40.size a := by
  show i ∈ ((View.whole main_v38).slice (win1_5.rect t)).set ↔ _
  rw [View.set_slice_whole, Rect.mem_set_unit]
  exact Iff.rfl

/-- Every tile is some point's: point `n` takes tile `(n, 0)`. -/
theorem tile_onto : ∀ n : Fin 25, ∃ t : Fin cfg1.N, win1_5.index t (0 : Fin 2) = n.val ∧ win1_5.index t (1 : Fin 2) = 0 :=
  (by decide +kernel : ∀ n : Fin 25, ∃ t : Fin grid1.N, win1_5.index t (0 : Fin 2) = n.val ∧ win1_5.index t (1 : Fin 2) = 0)

/-- The 25 tiles cover the output array: row `i` is in tile `i / 4000`. -/
theorem tiles_cover (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, q0, q1⟩ := tile_onto ⟨(i 0).val / 4000, by omega⟩
  have q0' : win1_5.index t (0 : Fin 2) = (i 0).val / 4000 := q0
  refine ⟨t, flush1_5 t, ?_⟩
  rw [mem_tile]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 40 ≤ (i 1).val ∧ (i 1).val < win1_5.index t (1 : Fin 2) * 40 + 40; omega

end Layer2

/-- The second region's output array, whole, after its 25 write-backs. -/
theorem arr1 (c : Dev nD) :
    (dat1 (F := Ideal) V c).arrAt 5 cfg1.N
      = Cert.Sage.logits (M := 100000) (K := 128) (N := 40) (V c main_v37) (V c main_v25) (V c main_arg5) (V c main_arg6) (V c main_arg7) :=
  (dat1 (F := Ideal) V c).arrAt_eq_of_cover 5
    (Cert.Sage.logits (M := 100000) (K := 128) (N := 40) (V c main_v37) (V c main_v25) (V c main_arg5) (V c main_arg6) (V c main_arg7))
    (fun t _ => Layer2.flushed_eq V c t) Layer2.tiles_cover

end Cert.KernelIdeal.Arr

end
-- ==== Proof.KernelValue.lean ====
/-
  The kernel program's result as one function of its arguments.

  The first region leaves the first layer of (the mean of the node features, the node features); the second stretch
  takes the mean of that array; the second region leaves the second layer of (that mean, that array). So the result
  array holds the two layers composed over the neighbour mean spelt as a product with the reciprocal degree.
-/
import proofs.«104940_j22411139350784_1_alg».proof.Proof.HostK
import proofs.«104940_j22411139350784_1_alg».proof.Proof.KArr0
import proofs.«104940_j22411139350784_1_alg».proof.Proof.KArr1
import proofs.«104940_j22411139350784_1_alg».proof.Proof.KernelRun

set_option maxRecDepth 16384

noncomputable section

namespace Cert.KernelIdeal.KValue

open Idealize.ShloMosaic Idealize.ShloMosaic.TcCoe Idealize.SL.Sem
open Cert.KernelIdeal Cert.KernelIdeal.Gen Cert.KernelIdeal.Mean

variable (m : (ℓ : Loc nD τ sig) → Buf (Elt Ideal) ℓ) (ρ : Dev nD → PrngReg)

/-- The first region's output when the second stretch starts: the first layer of the node features and their mean. -/
theorem hidden_at (c : Dev nD) :
    W2 m ρ c (Proc.devRef .tc main_v25)
      = Cert.Sage.hidden (M := 100000) (K := 128) (N := 128) (meanMul (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4)) := by
  refine (W2_arr m ρ c 5).trans ((Cert.KernelIdeal.Arr.arr0 (V1 m ρ) c).trans ?_)
  show Cert.Sage.hidden (M := 100000) (K := 128) (N := 128) (W1 m ρ c (Proc.devRef .tc main_v24)) (W1 m ρ c (Proc.devRef .tc main_arg0))
      (W1 m ρ c (Proc.devRef .tc main_arg2)) (W1 m ρ c (Proc.devRef .tc main_arg3)) (W1 m ρ c (Proc.devRef .tc main_arg4)) = _
  rw [HostK.W1_mean, HostK.W1_arg0, HostK.W1_arg2, HostK.W1_arg3, HostK.W1_arg4]

/-- The result array at the end: the network over the product-spelt mean. -/
theorem out_at (c : Dev nD) :
    W4 m ρ c (Proc.devRef .tc main_v38) = net (meanMul (F := Ideal)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Cert.KernelIdeal.Arr.arr1 (V3 m ρ) c).trans ?_)
  show Cert.Sage.logits (M := 100000) (K := 128) (N := 40) (W3 m ρ c (Proc.devRef .tc main_v37)) (W3 m ρ c (Proc.devRef .tc main_v25))
      (W3 m ρ c (Proc.devRef .tc main_arg5)) (W3 m ρ c (Proc.devRef .tc main_arg6)) (W3 m ρ c (Proc.devRef .tc main_arg7)) = _
  rw [HostK.W3_mean, HostK.W3_h, HostK.W3_arg5, HostK.W3_arg6, HostK.W3_arg7, hidden_at]
  rfl

/-- Every weakly fair execution of the kernel program ends with the result array at the network of the arguments and
    the arguments unchanged. -/
theorem run : θ_run defs (onTc (τ := τ) (main (F := Ideal))) ⟨m, fun _ => 0, ρ⟩ (fun r => ∀ c : Dev nD,
      r.2.mem ((c.tc : Thread nD τ).loc main_v38) = net (meanMul (F := Ideal)) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_at m ρ c), (h c).2⟩) (Cert.KernelIdeal.GenRun.run_named m ρ)

end Cert.KernelIdeal.KValue

end
-- ==== Proof.RefHidden.lean ====
/-
  The reference's first layer, read entry by entry: the array it calls the hidden features is the first layer of the
  neighbour mean of the node features and the node features themselves.
-/
import proofs.«104940_j22411139350784_1_alg».proof.Proof.RefRead
import proofs.«104940_j22411139350784_1_alg».proof.Proof.Spec

noncomputable section

namespace Cert.ReferenceIdeal.RefValue

open Idealize.ShloMosaic Idealize.ShloMosaic.ValueIdx Cert.ReferenceIdeal Cert.ReferenceIdeal.ReadP

/-! ## Where each stage reads its operands, at the entry `(r, q)` -/

/-- The first product reads the left operand's row `r` … -/
theorem lidx23_eq (r : Fin 100000) (q k : Fin 128) : lidx_main_v23 (ix2 r q) k = ix2 r k :=
  funext fun a => Fin.ext (by match a with | ⟨0, _⟩ => rfl | ⟨1, _⟩ => rfl)

/-- … and the right operand's column `q`. -/
theorem ridx23_eq (r : Fin 100000) (q k : Fin 128) : ridx_main_v23 (ix2 r q) k = ix2 k q :=
  funext fun a => Fin.ext (by match a with | ⟨0, _⟩ => rfl | ⟨1, _⟩ => rfl)

/-- The second product reads the left operand's row `r` … -/
theorem lidx27_eq (r : Fin 100000) (q k : Fin 128) : lidx_main_v27 (ix2 r q) k = ix2 r k :=
  funext fun a => Fin.ext (by match a with | ⟨0, _⟩ => rfl | ⟨1, _⟩ => rfl)

/-- … and the right operand's column `q`. -/
theorem ridx27_eq (r : Fin 100000) (q k : Fin 128) : ridx_main_v27 (ix2 r q) k = ix2 k q :=
  funext fun a => Fin.ext (by match a with | ⟨0, _⟩ => rfl | ⟨1, _⟩ => rfl)

/-- The bias laid as a row and then along the rows reads `b[q]`. -/
theorem idxBias_eq (r : Fin 100000) (q : Fin 128) : idx_main_v24 (idx_main_v25 (ix2 r q)) = ix1 q :=
  funext fun a => Fin.ext (by match a with | ⟨0, _⟩ => rfl)

/-- The row sum kept as a column and laid along the columns reads, at `(r, q)`, the summand at `(r, k)`. -/
theorem idxSum_eq (r : Fin 100000) (q k : Fin 128) :
    idx_main_call0_v1 (idx_main_call0_v2 (idx_main_v32 (ix2 r q))) k = ix2 r k :=
  funext fun a => Fin.ext (by match a with | ⟨0, _⟩ => rfl | ⟨1, _⟩ => rfl)

/-! ## The pre-activation -/

/-- A row's pre-activation with the bias added before the second product instead of after it: addition commutes. -/
theorem pre_bias_first {M K N : Nat} (mean x : Cert.Sage.Mat M K) (wl wr : Cert.Sage.Mat K N) (b : Cert.Sage.Row N)
    (r : Fin M) (q : Fin N) :
    (∑ k : Fin K, mean (ix2 r k) * wl (ix2 k q)) + b (ix1 q) + (∑ k : Fin K, x (ix2 r k) * wr (ix2 k q))
      = Cert.Sage.pre (Cert.Sage.row mean r) (Cert.Sage.row x r) wl b wr q :=
  add_right_comm _ _ _

/-- A product's entry `(r, q)`, with its operands read by coordinates: `∑ k, a[r, k] · w[k, q]`. -/
theorem dot23_eq (a : Cert.Sage.Mat 100000 128) (w : Cert.Sage.Mat 128 128) (r : Fin 100000) (q : Fin 128) :
    (∑ k : Fin 128, a (lidx_main_v23 (ix2 r q) k) * w (ridx_main_v23 (ix2 r q) k)) = ∑ k : Fin 128, a (ix2 r k) * w (ix2 k q) :=
  Finset.sum_congr rfl fun k _ => congrArg₂ (· * ·) (congrArg a (lidx23_eq r q k)) (congrArg w (ridx23_eq r q k))

/-- The second product's entry `(r, q)`, read the same way. -/
theorem dot27_eq (a : Cert.Sage.Mat 100000 128) (w : Cert.Sage.Mat 128 128) (r : Fin 100000) (q : Fin 128) :
    (∑ k : Fin 128, a (lidx_main_v27 (ix2 r q) k) * w (ridx_main_v27 (ix2 r q) k)) = ∑ k : Fin 128, a (ix2 r k) * w (ix2 k q) :=
  Finset.sum_congr rfl fun k _ => congrArg₂ (· * ·) (congrArg a (lidx27_eq r q k)) (congrArg w (ridx27_eq r q k))

/-- The reference's pre-activation at `(r, k)` is the row's pre-activation: it adds the bias before the second
    product where the row function adds it after, and addition commutes. -/
theorem ref_pre (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (r : Fin 100000) (k : Fin 128) :
    val_main_v28 (F := Ideal) x0 x1 x2 x3 x4 (ix2 r k)
      = Cert.Sage.pre (Cert.Sage.row (val_main_v22 (F := Ideal) x0 x1) r) (Cert.Sage.row x0 r) x2 x3 x4 k := by
  rw [val_main_v28_apply, val_main_v26_apply, val_main_v23_apply, val_main_v27_apply, val_main_v25_apply,
    val_main_v24_apply]
  generalize val_main_v22 (F := Ideal) x0 x1 = mean
  refine (congrArg₂ (· + ·) (congrArg₂ (· + ·) (dot23_eq mean x2 r k) (congrArg x3 (idxBias_eq r k)))
    (dot27_eq x0 x4 r k)).trans ?_
  exact pre_bias_first mean x0 x2 x4 x3 r k

/-! ## The row's length and the clamp -/

/-- The squares of the reference's pre-activation, summed where the kept column reads them: the sum of the squares of
    the row's pre-activation. -/
theorem ref_sqSum (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (r : Fin 100000) (q : Fin 128) :
    (∑ k : Fin 128, val_main_call0_v0 (F := Ideal) x0 x1 x2 x3 x4
        (idx_main_call0_v1 (idx_main_call0_v2 (idx_main_v32 (ix2 r q))) k))
      = ∑ k : Fin 128,
          Cert.Sage.pre (Cert.Sage.row (val_main_v22 (F := Ideal) x0 x1) r) (Cert.Sage.row x0 r) x2 x3 x4 k
            * Cert.Sage.pre (Cert.Sage.row (val_main_v22 (F := Ideal) x0 x1) r) (Cert.Sage.row x0 r) x2 x3 x4 k :=
  Finset.sum_congr rfl fun k _ => by
    rw [idxSum_eq, val_main_call0_v0_apply, ref_pre]
    exact Ideal.mulf_def _ _

/-- A row divided by its floored length and clamped at zero, with the sum of squares started from the zero word and the
    clamp taken against the zero word: the zero word denotes zero. -/
theorem clamp_unit {N : Nat} (o : Fin N → EReal) (q : Fin N) :
    max (Ideal.div (o q)
          (max (Ideal.sqrt (Ideal.ofBits .f32 0x00000000#32 + ∑ k : Fin N, o k * o k)) Cert.Sage.floorLen))
        (Ideal.ofBits .f32 0x00000000#32)
      = max (Cert.Sage.unit o q) 0 := by
  rw [Ideal.ofBits_zero_f32, zero_add]
  rfl

/-- The reference's hidden features are the first layer of (the mean of the node features, the node features). -/
theorem ref_hidden (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) :
    val_main_v34 (F := Ideal) x0 x1 x2 x3 x4
      = Cert.Sage.hidden (M := 100000) (K := 128) (N := 128) (val_main_v22 (F := Ideal) x0 x1) x0 x2 x3 x4 := by
  funext i
  obtain ⟨r, q, rfl⟩ : ∃ (r : Fin 100000) (q : Fin 128), i = ix2 r q := ⟨i 0, i 1, ValueIdx.eq_ix2 i⟩
  rw [Cert.Sage.hidden_apply, val_main_v34_apply, val_main_v33_apply, val_main_v32_apply, val_main_v31_apply,
    val_main_v29_apply, val_main_call0_v2_apply, val_main_call0_v1_apply, val_main_v30_apply, val_main_cst_4_apply,
    val_main_call1_v0_apply, val_main_call1_cst_apply, val_main_call0_cst_apply, ref_pre, ref_sqSum]
  generalize Cert.Sage.pre (Cert.Sage.row (val_main_v22 (F := Ideal) x0 x1) r) (Cert.Sage.row x0 r) x2 x3 x4 = o
  exact clamp_unit o q

end Cert.ReferenceIdeal.RefValue

end
-- ==== Proof.RefOut.lean ====
/-
  The reference's second layer, read entry by entry: its result is the second layer of the neighbour mean of the hidden
  features and the hidden features themselves.
-/
import proofs.«104940_j22411139350784_1_alg».proof.Proof.RefRead
import proofs.«104940_j22411139350784_1_alg».proof.Proof.Spec
import Idealize.ShloMosaic.PureOps.Reduce
import Idealize.ShloMosaic.PureOps.Ideal.Laws

noncomputable section

namespace Cert.ReferenceIdeal.RefValue

open Idealize.ShloMosaic Idealize.ShloMosaic.ValueIdx Cert.ReferenceIdeal Cert.ReferenceIdeal.ReadP

namespace Out

/-! ## Where each stage reads its operands, at the entry `(r, q)` -/

theorem lidx54_eq (r : Fin 100000) (q : Fin 40) (k : Fin 128) : lidx_main_v54 (ix2 r q) k = ix2 r k :=
  funext fun a => Fin.ext (by match a with | ⟨0, _⟩ => rfl | ⟨1, _⟩ => rfl)

theorem ridx54_eq (r : Fin 100000) (q : Fin 40) (k : Fin 128) : ridx_main_v54 (ix2 r q) k = ix2 k q :=
  funext fun a => Fin.ext (by match a with | ⟨0, _⟩ => rfl | ⟨1, _⟩ => rfl)

theorem lidx58_eq (r : Fin 100000) (q : Fin 40) (k : Fin 128) : lidx_main_v58 (ix2 r q) k = ix2 r k :=
  funext fun a => Fin.ext (by match a with | ⟨0, _⟩ => rfl | ⟨1, _⟩ => rfl)

theorem ridx58_eq (r : Fin 100000) (q : Fin 40) (k : Fin 128) : ridx_main_v58 (ix2 r q) k = ix2 k q :=
  funext fun a => Fin.ext (by match a with | ⟨0, _⟩ => rfl | ⟨1, _⟩ => rfl)

/-- The bias laid as a row and then along the rows reads `b[q]`. -/
theorem idxBias_eq (r : Fin 100000) (q : Fin 40) : idx_main_v55 (idx_main_v56 (ix2 r q)) = ix1 q :=
  funext fun a => Fin.ext (by match a with | ⟨0, _⟩ => rfl)

/-- The sum of squares kept as a column and laid along the columns reads, at `(r, q)`, the summand at `(r, k)`. -/
theorem idxSq_eq (r : Fin 100000) (q k : Fin 40) :
    idx_main_call2_v1 (idx_main_call2_v2 (idx_main_v63 (ix2 r q))) k = ix2 r k :=
  funext fun a => Fin.ext (by match a with | ⟨0, _⟩ => rfl | ⟨1, _⟩ => rfl)

/-- The row maximum kept as a column and laid along the columns reads, at `(r, k)`, the maximum of row `r`. -/
theorem idxMax_eq (r : Fin 100000) (k : Fin 40) : idx_main_call3_v3 (idx_main_call3_v4 (ix2 r k)) = ix1 r :=
  funext fun a => Fin.ext (by match a with | ⟨0, _⟩ => rfl)

/-- The sum of exponentials kept as a column and laid along the columns reads the summand at `(r, k)`. -/
theorem idxExp_eq (r : Fin 100000) (q k : Fin 40) :
    idx_main_call3_v7 (idx_main_call3_v8 (idx_main_call3_v10 (ix2 r q))) k = ix2 r k :=
  funext fun a => Fin.ext (by match a with | ⟨0, _⟩ => rfl | ⟨1, _⟩ => rfl)

/-! ## The laws the stages meet, over arbitrary arrays and rows -/

/-- A row's pre-activation with the bias added before the second product instead of after it: addition commutes. -/
theorem pre_bias_mid {M K N : Nat} (mean x : Cert.Sage.Mat M K) (wl wr : Cert.Sage.Mat K N) (b : Cert.Sage.Row N)
    (r : Fin M) (q : Fin N) :
    (∑ k : Fin K, mean (ix2 r k) * wl (ix2 k q)) + b (ix1 q) + (∑ k : Fin K, x (ix2 r k) * wr (ix2 k q))
      = Cert.Sage.pre (Cert.Sage.row mean r) (Cert.Sage.row x r) wl b wr q :=
  add_right_comm _ _ _

/-- A row divided by its floored length, with the sum of squares started from the zero word: the zero word is zero. -/
theorem unit_word {N : Nat} (o : Fin N → EReal) (q : Fin N) :
    Ideal.div (o q)
        (max (Ideal.sqrt (Ideal.ofBits .f32 0x00000000#32 + ∑ k : Fin N, o k * o k)) Cert.Sage.floorLen)
      = Cert.Sage.unit o q := by
  rw [Ideal.ofBits_zero_f32, zero_add]
  rfl

/-- A further `max` with the word of minus infinity changes nothing. -/
theorem shift_word {N : Nat} (z : Fin N → EReal) (k : Fin N) :
    z k - max Cert.Sage.maxStart (Cert.Sage.rowMax z) = z k - Cert.Sage.rowMax z := by
  rw [Cert.Sage.max_maxStart]

/-- The shifted entry minus the log of the sum of the shifted row's exponentials, the sum started from the zero word,
    is the log-softmax. -/
theorem lsm_word {N : Nat} (z : Fin N → EReal) (q : Fin N) :
    (z q - Cert.Sage.rowMax z)
        - Ideal.log (Ideal.ofBits .f32 0x00000000#32 + ∑ k : Fin N, Ideal.exp (z k - Cert.Sage.rowMax z))
      = Cert.Sage.lsm z q := by
  rw [Ideal.ofBits_zero_f32, zero_add]
  rfl

/-- A reduction of an `[a, b]` array over its columns with `max` as its body is, at row `i`, the fold of `max` from
    the initial value over the entries of the row. -/
theorem reduce_max_row {a b : ℕ} (Z : Cert.Sage.Mat a b) (init : (⟨0, ![]⟩ : Shape).Idx → EReal)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce (FloatOps.maximumf (F := Ideal) (φ := .f32)) Z init h' hu (ix1 i)
      = (Finset.univ : Finset (Fin b)).fold max (init (Shape.Idx.first hu)) (fun k => Z (ix2 i k)) := by
  refine (Host.reduce_eq_fold_single (FloatOps.maximumf (F := Ideal) (φ := .f32)) Z init h' h hu (ix1 i)).trans ?_
  refine congrArg (fun f => (Finset.univ : Finset (Fin b)).fold max (init (Shape.Idx.first hu)) f) (funext fun k => ?_)
  refine congrArg Z (funext fun ax => Fin.ext ?_)
  match ax with
  | ⟨0, _⟩ => rfl
  | ⟨1, _⟩ => rfl

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128x40, .f32⟩ : BufTy).Contents (Elt Ideal))
  (x6 : (⟨S40, .f32⟩ : BufTy).Contents (Elt Ideal)) (x7 : (⟨S128x40, .f32⟩ : BufTy).Contents (Elt Ideal))

/-! ## The pre-activation at an entry -/

/-- A product's entry `(r, q)`, with its operands read by coordinates: `∑ k, a[r, k] · w[k, q]`. -/
theorem dot54_eq (a : Cert.Sage.Mat 100000 128) (w : Cert.Sage.Mat 128 40) (r : Fin 100000) (q : Fin 40) :
    (∑ k : Fin 128, a (lidx_main_v54 (ix2 r q) k) * w (ridx_main_v54 (ix2 r q) k))
      = ∑ k : Fin 128, a (ix2 r k) * w (ix2 k q) :=
  Finset.sum_congr rfl fun k _ => congrArg₂ (· * ·) (congrArg a (lidx54_eq r q k)) (congrArg w (ridx54_eq r q k))

theorem dot58_eq (a : Cert.Sage.Mat 100000 128) (w : Cert.Sage.Mat 128 40) (r : Fin 100000) (q : Fin 40) :
    (∑ k : Fin 128, a (lidx_main_v58 (ix2 r q) k) * w (ridx_main_v58 (ix2 r q) k))
      = ∑ k : Fin 128, a (ix2 r k) * w (ix2 k q) :=
  Finset.sum_congr rfl fun k _ => congrArg₂ (· * ·) (congrArg a (lidx58_eq r q k)) (congrArg w (ridx58_eq r q k))

/-- The reference's pre-activation at `(r, q)` is the row's pre-activation. -/
theorem pre_entry (r : Fin 100000) (q : Fin 40) :
    val_main_v59 (F := Ideal) x0 x1 x2 x3 x4 x5 x6 x7 (ix2 r q)
      = Cert.Sage.pre (Cert.Sage.row (val_main_v53 (F := Ideal) x0 x1 x2 x3 x4) r)
          (Cert.Sage.row (val_main_v34 (F := Ideal) x0 x1 x2 x3 x4) r) x5 x6 x7 q := by
  rw [val_main_v59_apply, val_main_v57_apply, val_main_v54_apply, val_main_v58_apply, val_main_v56_apply,
    val_main_v55_apply]
  generalize val_main_v53 (F := Ideal) x0 x1 x2 x3 x4 = A
  generalize val_main_v34 (F := Ideal) x0 x1 x2 x3 x4 = H
  refine (congrArg₂ (· + ·) (congrArg₂ (· + ·) (dot54_eq A x5 r q) (congrArg x6 (idxBias_eq r q)))
    (dot58_eq H x7 r q)).trans ?_
  exact pre_bias_mid A H x5 x7 x6 r q

/-! ## The division by the floored length at an entry -/

/-- The squares of the pre-activation, summed where the kept column reads them. -/
theorem sqSum_entry (r : Fin 100000) (q : Fin 40) :
    (∑ k : Fin 40, val_main_call2_v0 (F := Ideal) x0 x1 x2 x3 x4 x5 x6 x7
        (idx_main_call2_v1 (idx_main_call2_v2 (idx_main_v63 (ix2 r q))) k))
      = ∑ k : Fin 40, Cert.Sage.pre (Cert.Sage.row (val_main_v53 (F := Ideal) x0 x1 x2 x3 x4) r)
          (Cert.Sage.row (val_main_v34 (F := Ideal) x0 x1 x2 x3 x4) r) x5 x6 x7 k
          * Cert.Sage.pre (Cert.Sage.row (val_main_v53 (F := Ideal) x0 x1 x2 x3 x4) r)
          (Cert.Sage.row (val_main_v34 (F := Ideal) x0 x1 x2 x3 x4) r) x5 x6 x7 k :=
  Finset.sum_congr rfl fun k _ => by
    rw [idxSq_eq, val_main_call2_v0_apply, pre_entry]
    exact Ideal.mulf_def _ _

theorem unit_entry (r : Fin 100000) (q : Fin 40) :
    val_main_v64 (F := Ideal) x0 x1 x2 x3 x4 x5 x6 x7 (ix2 r q)
      = Cert.Sage.unit (Cert.Sage.pre (Cert.Sage.row (val_main_v53 (F := Ideal) x0 x1 x2 x3 x4) r)
          (Cert.Sage.row (val_main_v34 (F := Ideal) x0 x1 x2 x3 x4) r) x5 x6 x7) q := by
  rw [val_main_v64_apply, val_main_v63_apply, val_main_v62_apply, val_main_v60_apply, val_main_call2_v2_apply,
    val_main_call2_v1_apply, val_main_v61_apply, val_main_cst_11_apply, val_main_call2_cst_apply, pre_entry,
    sqSum_entry]
  generalize Cert.Sage.pre (Cert.Sage.row (val_main_v53 (F := Ideal) x0 x1 x2 x3 x4) r)
          (Cert.Sage.row (val_main_v34 (F := Ideal) x0 x1 x2 x3 x4) r) x5 x6 x7 = o
  exact unit_word o q

/-! ## The log-softmax at an entry -/

/-- The reference's row maximum is the row's largest entry. -/
theorem rowMax_entry (r : Fin 100000) :
    val_main_call3_v0 (F := Ideal) x0 x1 x2 x3 x4 x5 x6 x7 (ix1 r)
      = Cert.Sage.rowMax (fun k => val_main_v64 (F := Ideal) x0 x1 x2 x3 x4 x5 x6 x7 (ix2 r k)) := by
  unfold val_main_call3_v0
  generalize val_main_v64 (F := Ideal) x0 x1 x2 x3 x4 x5 x6 x7 = Z
  refine (reduce_max_row Z (val_main_call3_cst (F := Ideal)) Gen.reducesTo_S100000x40_S100000_d1 (by decide) Gen.h_S_ r).trans ?_
  generalize (fun k : Fin 40 => Z (ix2 r k)) = z
  rfl

/-- The row shifted by its maximum. -/
theorem shift_entry (r : Fin 100000) (k : Fin 40) :
    val_main_call3_v5 (F := Ideal) x0 x1 x2 x3 x4 x5 x6 x7 (ix2 r k)
      = Cert.Sage.unit (Cert.Sage.pre (Cert.Sage.row (val_main_v53 (F := Ideal) x0 x1 x2 x3 x4) r)
          (Cert.Sage.row (val_main_v34 (F := Ideal) x0 x1 x2 x3 x4) r) x5 x6 x7) k
        - Cert.Sage.rowMax (Cert.Sage.unit (Cert.Sage.pre (Cert.Sage.row (val_main_v53 (F := Ideal) x0 x1 x2 x3 x4) r)
          (Cert.Sage.row (val_main_v34 (F := Ideal) x0 x1 x2 x3 x4) r) x5 x6 x7)) := by
  have hz : (fun j : Fin 40 => val_main_v64 (F := Ideal) x0 x1 x2 x3 x4 x5 x6 x7 (ix2 r j))
      = Cert.Sage.unit (Cert.Sage.pre (Cert.Sage.row (val_main_v53 (F := Ideal) x0 x1 x2 x3 x4) r)
          (Cert.Sage.row (val_main_v34 (F := Ideal) x0 x1 x2 x3 x4) r) x5 x6 x7) :=
    funext fun j => unit_entry x0 x1 x2 x3 x4 x5 x6 x7 r j
  rw [val_main_call3_v5_apply, val_main_call3_v4_apply, val_main_call3_v3_apply, val_main_call3_v2_apply,
    val_main_call3_v1_apply, val_main_call3_cst_0_apply, idxMax_eq, rowMax_entry, hz, unit_entry]
  generalize Cert.Sage.unit (Cert.Sage.pre (Cert.Sage.row (val_main_v53 (F := Ideal) x0 x1 x2 x3 x4) r)
          (Cert.Sage.row (val_main_v34 (F := Ideal) x0 x1 x2 x3 x4) r) x5 x6 x7) = z
  exact shift_word z k

/-- The exponentials of the shifted row, summed where the kept column reads them. -/
theorem expSum_entry (r : Fin 100000) (q : Fin 40) :
    (∑ k : Fin 40, val_main_call3_v6 (F := Ideal) x0 x1 x2 x3 x4 x5 x6 x7
        (idx_main_call3_v7 (idx_main_call3_v8 (idx_main_call3_v10 (ix2 r q))) k))
      = ∑ k : Fin 40, Ideal.exp (Cert.Sage.unit (Cert.Sage.pre (Cert.Sage.row (val_main_v53 (F := Ideal) x0 x1 x2 x3 x4) r)
          (Cert.Sage.row (val_main_v34 (F := Ideal) x0 x1 x2 x3 x4) r) x5 x6 x7) k
          - Cert.Sage.rowMax (Cert.Sage.unit (Cert.Sage.pre (Cert.Sage.row (val_main_v53 (F := Ideal) x0 x1 x2 x3 x4) r)
          (Cert.Sage.row (val_main_v34 (F := Ideal) x0 x1 x2 x3 x4) r) x5 x6 x7))) :=
  Finset.sum_congr rfl fun k _ => by
    rw [idxExp_eq, val_main_call3_v6_apply, shift_entry]
    exact Ideal.hostUnary_exp_def _

theorem lsm_entry (r : Fin 100000) (q : Fin 40) :
    val_main_v65 (F := Ideal) x0 x1 x2 x3 x4 x5 x6 x7 (ix2 r q)
      = Cert.Sage.lsm (Cert.Sage.unit (Cert.Sage.pre (Cert.Sage.row (val_main_v53 (F := Ideal) x0 x1 x2 x3 x4) r)
          (Cert.Sage.row (val_main_v34 (F := Ideal) x0 x1 x2 x3 x4) r) x5 x6 x7)) q := by
  rw [val_main_v65_apply, val_main_call3_v10_apply, val_main_call3_v9_apply, val_main_call3_v8_apply,
    val_main_call3_v7_apply, val_main_call3_cst_1_apply, shift_entry, expSum_entry]
  generalize Cert.Sage.unit (Cert.Sage.pre (Cert.Sage.row (val_main_v53 (F := Ideal) x0 x1 x2 x3 x4) r)
          (Cert.Sage.row (val_main_v34 (F := Ideal) x0 x1 x2 x3 x4) r) x5 x6 x7) = z
  exact lsm_word z q

end Out

/-- The reference's result is the second layer of (the mean of the hidden features, the hidden features). -/
theorem ref_out (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128x40, .f32⟩ : BufTy).Contents (Elt Ideal))
    (x6 : (⟨S40, .f32⟩ : BufTy).Contents (Elt Ideal)) (x7 : (⟨S128x40, .f32⟩ : BufTy).Contents (Elt Ideal)) :
    val_main_v65 (F := Ideal) x0 x1 x2 x3 x4 x5 x6 x7
      = Cert.Sage.logits (M := 100000) (K := 128) (N := 40) (val_main_v53 (F := Ideal) x0 x1 x2 x3 x4)
          (val_main_v34 (F := Ideal) x0 x1 x2 x3 x4) x5 x6 x7 := by
  funext i
  obtain ⟨r, q, rfl⟩ : ∃ (r : Fin 100000) (q : Fin 40), i = ix2 r q := ⟨i 0, i 1, eq_ix2 i⟩
  rw [Out.lsm_entry, Cert.Sage.logits_apply]

end Cert.ReferenceIdeal.RefValue

end
-- ==== Proof.RefMean.lean ====
/-
  The reference's neighbour means. In both layers the reference gathers the features of every edge's source, adds them
  into the edge's destination row, and divides by the floored degree: the mean in its quotient spelling, of the node
  features in the first layer and of the hidden features in the second. The two programs print the same operations, so
  this is the unfolding of the stage names.
-/
import proofs.«104940_j22411139350784_1_alg».proof.Proof.RefRead
import proofs.«104940_j22411139350784_1_alg».proof.Proof.Mean

noncomputable section

namespace Cert.ReferenceIdeal.RefValue

open Idealize.ShloMosaic Cert.ReferenceIdeal Cert.ReferenceIdeal.ReadP

variable {F : FTy → Type} [FloatOps F]

/-- The first layer's mean is the quotient-spelt mean of the node features. -/
theorem ref_mean1 (x0 : (⟨S100000x128, .f32⟩ : BufTy).Contents (Elt F)) (x1 : (⟨S2x1600000, .i32⟩ : BufTy).Contents (Elt F)) :
    val_main_v22 (F := F) x0 x1 = Cert.KernelIdeal.Mean.meanDiv (F := F) x0 x1 := by
  unfold val_main_v22 val_main_v21 val_main_v20 val_main_v19 val_main_v18 val_main_cst_3 val_main_v17 val_main_v16 val_main_v15 val_main_cst_2 val_main_v14 val_main_cst_1 val_main_v13 val_main_v12 val_main_v11 val_main_cst val_main_v10 val_main_v9 val_main_v8 val_main_v7 val_main_v6 val_main_c_0 val_main_v5 val_main_v4 val_main_c val_main_v3 val_main_v2 val_main_v1 val_main_v0
  rfl

/-- The second layer's mean is the quotient-spelt mean of the hidden features. -/
theorem ref_mean2 (x0 : (⟨S100000x128, .f32⟩ : BufTy).Contents (Elt F)) (x1 : (⟨S2x1600000, .i32⟩ : BufTy).Contents (Elt F)) (x2 : (⟨S128x128, .f32⟩ : BufTy).Contents (Elt F))
    (x3 : (⟨S128, .f32⟩ : BufTy).Contents (Elt F)) (x4 : (⟨S128x128, .f32⟩ : BufTy).Contents (Elt F)) :
    val_main_v53 (F := F) x0 x1 x2 x3 x4
      = Cert.KernelIdeal.Mean.meanDiv (F := F) (val_main_v34 (F := F) x0 x1 x2 x3 x4) x1 := by
  unfold val_main_v53 val_main_v44 val_main_v41
  generalize val_main_v34 (F := F) x0 x1 x2 x3 x4 = h
  unfold val_main_v52 val_main_v51 val_main_v50 val_main_v49 val_main_cst_10 val_main_v48 val_main_v47 val_main_v46 val_main_cst_9 val_main_v45 val_main_cst_8 val_main_v43 val_main_v42 val_main_cst_7 val_main_v40 val_main_v39 val_main_v38 val_main_v37 val_main_c_6 val_main_v36 val_main_v35 val_main_c_5 val_main_v3 val_main_v2 val_main_v1 val_main_v0
  rfl

end Cert.ReferenceIdeal.RefValue

end
-- ==== Proof.RefValue.lean ====
/-
  The reference's result as one function of its arguments: the two layers composed over the neighbour mean spelt as a
  quotient by the floored degree.
-/
import proofs.«104940_j22411139350784_1_alg».proof.Proof.RefHidden
import proofs.«104940_j22411139350784_1_alg».proof.Proof.RefOut
import proofs.«104940_j22411139350784_1_alg».proof.Proof.RefMean

noncomputable section

namespace Cert.ReferenceIdeal.RefValue

open Idealize.ShloMosaic Cert.ReferenceIdeal Cert.ReferenceIdeal.ReadP

/-- The reference's result stage is the network over the quotient-spelt mean. -/
theorem ref_net (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) (x5 : (⟨S128x40, .f32⟩ : BufTy).Contents (Elt Ideal))
    (x6 : (⟨S40, .f32⟩ : BufTy).Contents (Elt Ideal)) (x7 : (⟨S128x40, .f32⟩ : BufTy).Contents (Elt Ideal)) :
    val_main_v65 (F := Ideal) x0 x1 x2 x3 x4 x5 x6 x7
      = Cert.KernelIdeal.Mean.net (Cert.KernelIdeal.Mean.meanDiv (F := Ideal)) x0 x1 x2 x3 x4 x5 x6 x7 := by
  rw [ref_out, ref_mean2, ref_hidden, ref_mean1]
  rfl

end Cert.ReferenceIdeal.RefValue

end
-- ==== Proof.RefStretch.lean ====
/-
  The reference program's run, read in five stretches.

  The reference is one line of 104 array operations. Cut after the first neighbour mean, after the hidden features,
  after the second neighbour mean and after the second layer's unit rows, each stretch reads only a handful of the
  arrays the earlier ones left: the mean and the arguments; then the hidden features and the two edge rows; then the
  second mean, the hidden features and the second layer's weights; then the unit rows alone. What each stretch leaves is stated over the stage functions of the operations, an earlier
  stage entering a later one only by its name; the whole line is the five stretches one after the other.
-/
import proofs.«104940_j22411139350784_1_alg».proof.Proof.RefRead
import Idealize.ShloMosaic.Lib.StableHlo.Run

set_option maxRecDepth 16384
-- terms over arrays of 100000 rows and 1.6 million edges are slow to elaborate, not hard
set_option maxHeartbeats 8000000

noncomputable section

namespace Cert.ReferenceIdeal.RunS

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-! ## The line, cut in five -/

/-- Operations 1 to 29: the edge rows, the summed source features, the degree, the first neighbour mean. -/
abbrev stretch1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)) ]

/-- Operations 30 to 48: the first layer on the whole array, up to the hidden features. -/
abbrev stretch2 : List (HloOp τ sig (Elt F)) :=
  [ binary main_v22 main_arg2 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v24 (broadcastInDim S1x128 ![1] bcast_S128_S1x128_1 : (⟨S128, .f32⟩ : BufTy).Contents (Elt F) → (⟨S1x128, .f32⟩ : BufTy).Contents (Elt F)),
    unary main_v24 main_v25 (broadcastInDim S100000x128 ![0, 1] bcast_S1x128_S100000x128_0_1 : (⟨S1x128, .f32⟩ : BufTy).Contents (Elt F) → (⟨S100000x128, .f32⟩ : BufTy).Contents (Elt F)),
    binary main_v23 main_v25 main_v26 (addf : (⟨S100000x128, .f32⟩ : BufTy).Contents (Elt F) → (⟨S100000x128, .f32⟩ : BufTy).Contents (Elt F) → (⟨S100000x128, .f32⟩ : BufTy).Contents (Elt F)),
    binary main_arg0 main_arg4 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v26 main_v27 main_v28 (addf : (⟨S100000x128, .f32⟩ : BufTy).Contents (Elt F) → (⟨S100000x128, .f32⟩ : BufTy).Contents (Elt F) → (⟨S100000x128, .f32⟩ : BufTy).Contents (Elt F)),
    TRef.binary (TRef.of (T := ⟨S100000x128, .f32⟩) main_v28) (TRef.of (T := ⟨S100000x128, .f32⟩) main_v28) (TRef.of (T := ⟨S100000x128, .f32⟩) main_call0_v0) mulf,
    TRef.nullary (TRef.of (T := ⟨S_, .f32⟩) main_call0_cst) (constant S_ .f32 0x00000000#32),
    TRef.binary (TRef.of (T := ⟨S100000x128, .f32⟩) main_call0_v0) (TRef.of (T := ⟨S_, .f32⟩) main_call0_cst) (TRef.of (T := ⟨S100000, .f32⟩) main_call0_v1) (fun x v => Host.reduceAdd x v reducesTo_S100000x128_S100000_d1 h_S_),
    TRef.unary (TRef.of (T := ⟨S100000, .f32⟩) main_call0_v1) (TRef.of (T := ⟨S100000x1, .f32⟩) main_call0_v2) (broadcastInDim S100000x1 ![0] bcast_S100000_S100000x1_0),
    TRef.unary (TRef.of (T := ⟨S100000x1, .f32⟩) main_call0_v2) (TRef.of (T := ⟨S100000x1, .f32⟩) main_v29) Host.sqrt,
    nullary main_cst_4 (constant S_ .f32 0x2B8CBCCC#32),
    unary main_cst_4 main_v30 (broadcastInDim S100000x1 ![] bcast_S_S100000x1 : (⟨S_, .f32⟩ : BufTy).Contents (Elt F) → (⟨S100000x1, .f32⟩ : BufTy).Contents (Elt F)),
    binary main_v29 main_v30 main_v31 (maximumf : (⟨S100000x1, .f32⟩ : BufTy).Contents (Elt F) → (⟨S100000x1, .f32⟩ : BufTy).Contents (Elt F) → (⟨S100000x1, .f32⟩ : BufTy).Contents (Elt F)),
    unary main_v31 main_v32 (broadcastInDim S100000x128 ![0, 1] bcast_S100000x1_S100000x128_0_1 : (⟨S100000x1, .f32⟩ : BufTy).Contents (Elt F) → (⟨S100000x128, .f32⟩ : BufTy).Contents (Elt F)),
    binary main_v28 main_v32 main_v33 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v33) (TRef.of (T := ⟨S100000x128, .f32⟩) main_call1_v0) (TRef.of (T := ⟨S100000x128, .f32⟩) main_v34) maximumf ]

/-- Operations 49 to 73: the second neighbour mean, of the hidden features. -/
abbrev stretch3 : List (HloOp τ sig (Elt F)) :=
  [ nullary main_c_5 (constantI S_ 32 0#32),
    unary main_c_5 main_v35 (broadcastInDim S1600000 ![] bcast_S_S1600000 : (⟨S_, .i32⟩ : BufTy).Contents (Elt F) → (⟨S1600000, .i32⟩ : BufTy).Contents (Elt F)),
    binary main_v1 main_v35 main_v36 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v37 (broadcastInDim S1600000 ![] bcast_S_S1600000 : (⟨S_, .i32⟩ : BufTy).Contents (Elt F) → (⟨S1600000, .i32⟩ : BufTy).Contents (Elt F)),
    binary main_v1 main_v37 main_v38 (addi : (⟨S1600000, .i32⟩ : BufTy).Contents (Elt F) → (⟨S1600000, .i32⟩ : BufTy).Contents (Elt F) → (⟨S1600000, .i32⟩ : BufTy).Contents (Elt F)),
    ternary main_v36 main_v38 main_v1 main_v39 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v39 main_v40 (broadcastInDim S1600000x1 ![0] bcast_S1600000_S1600000x1_0 : (⟨S1600000, .i32⟩ : BufTy).Contents (Elt F) → (⟨S1600000x1, .i32⟩ : BufTy).Contents (Elt F)),
    binary main_v34 main_v40 main_v41 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v42 (broadcastInDim S100000x128 ![] bcast_S_S100000x128 : (⟨S_, .f32⟩ : BufTy).Contents (Elt F) → (⟨S100000x128, .f32⟩ : BufTy).Contents (Elt F)),
    unary main_v3 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_8 (constant S_ .f32 0x3F800000#32),
    unary main_cst_8 main_v45 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v46 (broadcastInDim S100000 ![] bcast_S_S100000 : (⟨S_, .f32⟩ : BufTy).Contents (Elt F) → (⟨S100000, .f32⟩ : BufTy).Contents (Elt F)),
    unary main_v3 main_v47 (broadcastInDim S1600000x1 ![0] bcast_S1600000_S1600000x1_0 : (⟨S1600000, .i32⟩ : BufTy).Contents (Elt F) → (⟨S1600000x1, .i32⟩ : BufTy).Contents (Elt F)),
    ternary main_v46 main_v47 main_v45 main_v48 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v49 (broadcastInDim S100000 ![] bcast_S_S100000 : (⟨S_, .f32⟩ : BufTy).Contents (Elt F) → (⟨S100000, .f32⟩ : BufTy).Contents (Elt F)),
    binary main_v48 main_v49 main_v50 (maximumf : (⟨S100000, .f32⟩ : BufTy).Contents (Elt F) → (⟨S100000, .f32⟩ : BufTy).Contents (Elt F) → (⟨S100000, .f32⟩ : BufTy).Contents (Elt F)),
    unary main_v50 main_v51 (broadcastInDim S100000x1 ![0] bcast_S100000_S100000x1_0 : (⟨S100000, .f32⟩ : BufTy).Contents (Elt F) → (⟨S100000x1, .f32⟩ : BufTy).Contents (Elt F)),
    unary main_v51 main_v52 (broadcastInDim S100000x128 ![0, 1] bcast_S100000x1_S100000x128_0_1 : (⟨S100000x1, .f32⟩ : BufTy).Contents (Elt F) → (⟨S100000x128, .f32⟩ : BufTy).Contents (Elt F)),
    binary main_v44 main_v52 main_v53 (Host.divf : (⟨S100000x128, .f32⟩ : BufTy).Contents (Elt F) → (⟨S100000x128, .f32⟩ : BufTy).Contents (Elt F) → (⟨S100000x128, .f32⟩ : BufTy).Contents (Elt F)) ]

/-- Operations 74 to 89: the second layer's pre-activation and its unit rows. -/
abbrev stretch4 : List (HloOp τ sig (Elt F)) :=
  [ binary main_v53 main_arg5 main_v54 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg6 main_v55 (broadcastInDim S1x40 ![1] bcast_S40_S1x40_1 : (⟨S40, .f32⟩ : BufTy).Contents (Elt F) → (⟨S1x40, .f32⟩ : BufTy).Contents (Elt F)),
    unary main_v55 main_v56 (broadcastInDim S100000x40 ![0, 1] bcast_S1x40_S100000x40_0_1 : (⟨S1x40, .f32⟩ : BufTy).Contents (Elt F) → (⟨S100000x40, .f32⟩ : BufTy).Contents (Elt F)),
    binary main_v54 main_v56 main_v57 (addf : (⟨S100000x40, .f32⟩ : BufTy).Contents (Elt F) → (⟨S100000x40, .f32⟩ : BufTy).Contents (Elt F) → (⟨S100000x40, .f32⟩ : BufTy).Contents (Elt F)),
    binary main_v34 main_arg7 main_v58 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v57 main_v58 main_v59 (addf : (⟨S100000x40, .f32⟩ : BufTy).Contents (Elt F) → (⟨S100000x40, .f32⟩ : BufTy).Contents (Elt F) → (⟨S100000x40, .f32⟩ : BufTy).Contents (Elt F)),
    TRef.binary (TRef.of (T := ⟨S100000x40, .f32⟩) main_v59) (TRef.of (T := ⟨S100000x40, .f32⟩) main_v59) (TRef.of (T := ⟨S100000x40, .f32⟩) main_call2_v0) mulf,
    TRef.nullary (TRef.of (T := ⟨S_, .f32⟩) main_call2_cst) (constant S_ .f32 0x00000000#32),
    TRef.binary (TRef.of (T := ⟨S100000x40, .f32⟩) main_call2_v0) (TRef.of (T := ⟨S_, .f32⟩) main_call2_cst) (TRef.of (T := ⟨S100000, .f32⟩) main_call2_v1) (fun x v => Host.reduceAdd x v reducesTo_S100000x40_S100000_d1 h_S_),
    TRef.unary (TRef.of (T := ⟨S100000, .f32⟩) main_call2_v1) (TRef.of (T := ⟨S100000x1, .f32⟩) main_call2_v2) (broadcastInDim S100000x1 ![0] bcast_S100000_S100000x1_0),
    TRef.unary (TRef.of (T := ⟨S100000x1, .f32⟩) main_call2_v2) (TRef.of (T := ⟨S100000x1, .f32⟩) main_v60) Host.sqrt,
    nullary main_cst_11 (constant S_ .f32 0x2B8CBCCC#32),
    unary main_cst_11 main_v61 (broadcastInDim S100000x1 ![] bcast_S_S100000x1 : (⟨S_, .f32⟩ : BufTy).Contents (Elt F) → (⟨S100000x1, .f32⟩ : BufTy).Contents (Elt F)),
    binary main_v60 main_v61 main_v62 (maximumf : (⟨S100000x1, .f32⟩ : BufTy).Contents (Elt F) → (⟨S100000x1, .f32⟩ : BufTy).Contents (Elt F) → (⟨S100000x1, .f32⟩ : BufTy).Contents (Elt F)),
    unary main_v62 main_v63 (broadcastInDim S100000x40 ![0, 1] bcast_S100000x1_S100000x40_0_1 : (⟨S100000x1, .f32⟩ : BufTy).Contents (Elt F) → (⟨S100000x40, .f32⟩ : BufTy).Contents (Elt F)),
    binary main_v59 main_v63 main_v64 (Host.divf : (⟨S100000x40, .f32⟩ : BufTy).Contents (Elt F) → (⟨S100000x40, .f32⟩ : BufTy).Contents (Elt F) → (⟨S100000x40, .f32⟩ : BufTy).Contents (Elt F)) ]

/-- Operations 90 to 104: the log-softmax of the unit rows, up to the result. -/
abbrev stretch5 : List (HloOp τ sig (Elt F)) :=
  [ TRef.nullary (TRef.of (T := ⟨S_, .f32⟩) main_call3_cst) (constant S_ .f32 0xFF800000#32),
    TRef.binary (TRef.of (T := ⟨S100000x40, .f32⟩) main_v64) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v64) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v65) subf ]
/-- The line is the five stretches in order. -/
theorem ops_cut : (ops : List (HloOp τ sig (Elt F))) = stretch1 ++ (stretch2 ++ (stretch3 ++ (stretch4 ++ stretch5))) := rfl

/-- Running a line made of two parts is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What each stretch leaves -/

/-- The first stretch leaves the first neighbour mean, -/
theorem s1_mean (V : Valuation τ sig (Elt F)) :
    after stretch1 V (Proc.devRef .tc main_v22) = val_main_v22 (F := F) (V (Proc.devRef .tc main_arg0)) (V (Proc.devRef .tc main_arg1)) := by
  after_results <;> rfl
/-- the row of source nodes, -/
theorem s1_src (V : Valuation τ sig (Elt F)) : after stretch1 V (Proc.devRef .tc main_v1) = val_main_v1 (F := F) (V (Proc.devRef .tc main_arg1)) := by
  after_results <;> rfl
/-- the row of destination nodes, -/
theorem s1_dst (V : Valuation τ sig (Elt F)) : after stretch1 V (Proc.devRef .tc main_v3) = val_main_v3 (F := F) (V (Proc.devRef .tc main_arg1)) := by
  after_results <;> rfl
/-- and the arguments as they were. -/
theorem s1_arg0 (W : Valuation τ sig (Elt F)) : after stretch1 W (Proc.devRef .tc main_arg0) = W (Proc.devRef .tc main_arg0) := by
  after_results <;> rfl
theorem s1_arg1 (W : Valuation τ sig (Elt F)) : after stretch1 W (Proc.devRef .tc main_arg1) = W (Proc.devRef .tc main_arg1) := by
  after_results <;> rfl
theorem s1_arg2 (W : Valuation τ sig (Elt F)) : after stretch1 W (Proc.devRef .tc main_arg2) = W (Proc.devRef .tc main_arg2) := by
  after_results <;> rfl
theorem s1_arg3 (W : Valuation τ sig (Elt F)) : after stretch1 W (Proc.devRef .tc main_arg3) = W (Proc.devRef .tc main_arg3) := by
  after_results <;> rfl
theorem s1_arg4 (W : Valuation τ sig (Elt F)) : after stretch1 W (Proc.devRef .tc main_arg4) = W (Proc.devRef .tc main_arg4) := by
  after_results <;> rfl
theorem s1_arg5 (W : Valuation τ sig (Elt F)) : after stretch1 W (Proc.devRef .tc main_arg5) = W (Proc.devRef .tc main_arg5) := by
  after_results <;> rfl
theorem s1_arg6 (W : Valuation τ sig (Elt F)) : after stretch1 W (Proc.devRef .tc main_arg6) = W (Proc.devRef .tc main_arg6) := by
  after_results <;> rfl
theorem s1_arg7 (W : Valuation τ sig (Elt F)) : after stretch1 W (Proc.devRef .tc main_arg7) = W (Proc.devRef .tc main_arg7) := by
  after_results <;> rfl

/-- From contents holding the first mean and the arguments, the second stretch leaves the hidden features, -/
theorem s2_hidden (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F))
    (hm : W (Proc.devRef .tc main_v22) = val_main_v22 (F := F) x0 x1) (h0 : W (Proc.devRef .tc main_arg0) = x0) (h2 : W (Proc.devRef .tc main_arg2) = x2)
    (h3 : W (Proc.devRef .tc main_arg3) = x3) (h4 : W (Proc.devRef .tc main_arg4) = x4) :
    after stretch2 W (Proc.devRef .tc main_v34) = val_main_v34 (F := F) x0 x1 x2 x3 x4 := by
  after_results
  rw [hm, h0, h2, h3, h4]
  rfl
/-- and the edge rows and the arguments as they were. -/
theorem s2_src (W : Valuation τ sig (Elt F)) : after stretch2 W (Proc.devRef .tc main_v1) = W (Proc.devRef .tc main_v1) := by
  after_results <;> rfl
theorem s2_dst (W : Valuation τ sig (Elt F)) : after stretch2 W (Proc.devRef .tc main_v3) = W (Proc.devRef .tc main_v3) := by
  after_results <;> rfl
theorem s2_arg0 (W : Valuation τ sig (Elt F)) : after stretch2 W (Proc.devRef .tc main_arg0) = W (Proc.devRef .tc main_arg0) := by
  after_results <;> rfl
theorem s2_arg1 (W : Valuation τ sig (Elt F)) : after stretch2 W (Proc.devRef .tc main_arg1) = W (Proc.devRef .tc main_arg1) := by
  after_results <;> rfl
theorem s2_arg2 (W : Valuation τ sig (Elt F)) : after stretch2 W (Proc.devRef .tc main_arg2) = W (Proc.devRef .tc main_arg2) := by
  after_results <;> rfl
theorem s2_arg3 (W : Valuation τ sig (Elt F)) : after stretch2 W (Proc.devRef .tc main_arg3) = W (Proc.devRef .tc main_arg3) := by
  after_results <;> rfl
theorem s2_arg4 (W : Valuation τ sig (Elt F)) : after stretch2 W (Proc.devRef .tc main_arg4) = W (Proc.devRef .tc main_arg4) := by
  after_results <;> rfl
theorem s2_arg5 (W : Valuation τ sig (Elt F)) : after stretch2 W (Proc.devRef .tc main_arg5) = W (Proc.devRef .tc main_arg5) := by
  after_results <;> rfl
theorem s2_arg6 (W : Valuation τ sig (Elt F)) : after stretch2 W (Proc.devRef .tc main_arg6) = W (Proc.devRef .tc main_arg6) := by
  after_results <;> rfl
theorem s2_arg7 (W : Valuation τ sig (Elt F)) : after stretch2 W (Proc.devRef .tc main_arg7) = W (Proc.devRef .tc main_arg7) := by
  after_results <;> rfl

/-- From contents holding the hidden features and the edge rows, the third stretch leaves the second neighbour mean, -/
theorem s3_mean (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F))
    (hh : W (Proc.devRef .tc main_v34) = val_main_v34 (F := F) x0 x1 x2 x3 x4) (hs : W (Proc.devRef .tc main_v1) = val_main_v1 (F := F) x1)
    (hd : W (Proc.devRef .tc main_v3) = val_main_v3 (F := F) x1) :
    after stretch3 W (Proc.devRef .tc main_v53) = val_main_v53 (F := F) x0 x1 x2 x3 x4 := by
  after_results
  rw [hh, hs, hd]
  rfl
/-- and the hidden features and the arguments as they were. -/
theorem s3_hidden (W : Valuation τ sig (Elt F)) : after stretch3 W (Proc.devRef .tc main_v34) = W (Proc.devRef .tc main_v34) := by
  after_results <;> rfl
theorem s3_arg0 (W : Valuation τ sig (Elt F)) : after stretch3 W (Proc.devRef .tc main_arg0) = W (Proc.devRef .tc main_arg0) := by
  after_results <;> rfl
theorem s3_arg1 (W : Valuation τ sig (Elt F)) : after stretch3 W (Proc.devRef .tc main_arg1) = W (Proc.devRef .tc main_arg1) := by
  after_results <;> rfl
theorem s3_arg2 (W : Valuation τ sig (Elt F)) : after stretch3 W (Proc.devRef .tc main_arg2) = W (Proc.devRef .tc main_arg2) := by
  after_results <;> rfl
theorem s3_arg3 (W : Valuation τ sig (Elt F)) : after stretch3 W (Proc.devRef .tc main_arg3) = W (Proc.devRef .tc main_arg3) := by
  after_results <;> rfl
theorem s3_arg4 (W : Valuation τ sig (Elt F)) : after stretch3 W (Proc.devRef .tc main_arg4) = W (Proc.devRef .tc main_arg4) := by
  after_results <;> rfl
theorem s3_arg5 (W : Valuation τ sig (Elt F)) : after stretch3 W (Proc.devRef .tc main_arg5) = W (Proc.devRef .tc main_arg5) := by
  after_results <;> rfl
theorem s3_arg6 (W : Valuation τ sig (Elt F)) : after stretch3 W (Proc.devRef .tc main_arg6) = W (Proc.devRef .tc main_arg6) := by
  after_results <;> rfl
theorem s3_arg7 (W : Valuation τ sig (Elt F)) : after stretch3 W (Proc.devRef .tc main_arg7) = W (Proc.devRef .tc main_arg7) := by
  after_results <;> rfl

/-- From contents holding the second mean, the hidden features and the second layer's weights, the fourth stretch leaves
    the second layer's unit rows, -/
theorem s4_unit (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x40, .f32⟩ : BufTy).Contents (Elt F)) (x6 : (⟨S40, .f32⟩ : BufTy).Contents (Elt F)) (x7 : (⟨S128x40, .f32⟩ : BufTy).Contents (Elt F))
    (hm : W (Proc.devRef .tc main_v53) = val_main_v53 (F := F) x0 x1 x2 x3 x4) (hh : W (Proc.devRef .tc main_v34) = val_main_v34 (F := F) x0 x1 x2 x3 x4)
    (h5 : W (Proc.devRef .tc main_arg5) = x5) (h6 : W (Proc.devRef .tc main_arg6) = x6) (h7 : W (Proc.devRef .tc main_arg7) = x7) :
    after stretch4 W (Proc.devRef .tc main_v64) = val_main_v64 (F := F) x0 x1 x2 x3 x4 x5 x6 x7 := by
  after_results
  rw [hm, hh, h5, h6, h7]
  rfl
/-- and the arguments as they were. -/
theorem s4_arg0 (W : Valuation τ sig (Elt F)) : after stretch4 W (Proc.devRef .tc main_arg0) = W (Proc.devRef .tc main_arg0) := by
  after_results <;> rfl
theorem s4_arg1 (W : Valuation τ sig (Elt F)) : after stretch4 W (Proc.devRef .tc main_arg1) = W (Proc.devRef .tc main_arg1) := by
  after_results <;> rfl
theorem s4_arg2 (W : Valuation τ sig (Elt F)) : after stretch4 W (Proc.devRef .tc main_arg2) = W (Proc.devRef .tc main_arg2) := by
  after_results <;> rfl
theorem s4_arg3 (W : Valuation τ sig (Elt F)) : after stretch4 W (Proc.devRef .tc main_arg3) = W (Proc.devRef .tc main_arg3) := by
  after_results <;> rfl
theorem s4_arg4 (W : Valuation τ sig (Elt F)) : after stretch4 W (Proc.devRef .tc main_arg4) = W (Proc.devRef .tc main_arg4) := by
  after_results <;> rfl
theorem s4_arg5 (W : Valuation τ sig (Elt F)) : after stretch4 W (Proc.devRef .tc main_arg5) = W (Proc.devRef .tc main_arg5) := by
  after_results <;> rfl
theorem s4_arg6 (W : Valuation τ sig (Elt F)) : after stretch4 W (Proc.devRef .tc main_arg6) = W (Proc.devRef .tc main_arg6) := by
  after_results <;> rfl
theorem s4_arg7 (W : Valuation τ sig (Elt F)) : after stretch4 W (Proc.devRef .tc main_arg7) = W (Proc.devRef .tc main_arg7) := by
  after_results <;> rfl

/-- A value moved to a buffer's own type and back is the value: the two types are one. -/
theorem there_and_back {T : BufTy} (x : TRef sig T) (v : T.Contents (Elt F)) : x.ofBuf (x.toBuf v) = v := by
  obtain ⟨r, h, _, _⟩ := x
  subst h
  rfl

/-- The unit rows are read at the type their buffer has, -/
theorem read_unit (a : main_v64.ty.Contents (Elt F)) : (TRef.of (T := ⟨S100000x40, .f32⟩) main_v64).ofBuf a = a := rfl
/-- and the result is written at the type its buffer has. -/
theorem write_result (a : (⟨S100000x40, .f32⟩ : BufTy).Contents (Elt F)) :
    (TRef.of (T := ⟨S100000x40, .f32⟩) main_v65).toBuf a = a := rfl

/-- From contents holding the unit rows, the fifth stretch leaves the result, -/
theorem s5_out (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x40, .f32⟩ : BufTy).Contents (Elt F)) (x6 : (⟨S40, .f32⟩ : BufTy).Contents (Elt F)) (x7 : (⟨S128x40, .f32⟩ : BufTy).Contents (Elt F))
    (hu : W (Proc.devRef .tc main_v64) = val_main_v64 (F := F) x0 x1 x2 x3 x4 x5 x6 x7) :
    after stretch5 W (Proc.devRef .tc main_v65) = val_main_v65 (F := F) x0 x1 x2 x3 x4 x5 x6 x7 := by
  after_results
  rw [hu]
  simp only [there_and_back, read_unit, write_result]
  rfl
/-- and the arguments as they were. -/
theorem s5_arg0 (W : Valuation τ sig (Elt F)) : after stretch5 W (Proc.devRef .tc main_arg0) = W (Proc.devRef .tc main_arg0) := by
  after_results <;> rfl
theorem s5_arg1 (W : Valuation τ sig (Elt F)) : after stretch5 W (Proc.devRef .tc main_arg1) = W (Proc.devRef .tc main_arg1) := by
  after_results <;> rfl
theorem s5_arg2 (W : Valuation τ sig (Elt F)) : after stretch5 W (Proc.devRef .tc main_arg2) = W (Proc.devRef .tc main_arg2) := by
  after_results <;> rfl
theorem s5_arg3 (W : Valuation τ sig (Elt F)) : after stretch5 W (Proc.devRef .tc main_arg3) = W (Proc.devRef .tc main_arg3) := by
  after_results <;> rfl
theorem s5_arg4 (W : Valuation τ sig (Elt F)) : after stretch5 W (Proc.devRef .tc main_arg4) = W (Proc.devRef .tc main_arg4) := by
  after_results <;> rfl
theorem s5_arg5 (W : Valuation τ sig (Elt F)) : after stretch5 W (Proc.devRef .tc main_arg5) = W (Proc.devRef .tc main_arg5) := by
  after_results <;> rfl
theorem s5_arg6 (W : Valuation τ sig (Elt F)) : after stretch5 W (Proc.devRef .tc main_arg6) = W (Proc.devRef .tc main_arg6) := by
  after_results <;> rfl
theorem s5_arg7 (W : Valuation τ sig (Elt F)) : after stretch5 W (Proc.devRef .tc main_arg7) = W (Proc.devRef .tc main_arg7) := by
  after_results <;> rfl

/-! ## The whole line -/

theorem kept_arg0 (V : Valuation τ sig (Elt F)) : after ops V (Proc.devRef .tc main_arg0) = V (Proc.devRef .tc main_arg0) := by
  rw [ops_cut, after_append, after_append, after_append, after_append, s5_arg0, s4_arg0, s3_arg0, s2_arg0, s1_arg0]
theorem kept_arg1 (V : Valuation τ sig (Elt F)) : after ops V (Proc.devRef .tc main_arg1) = V (Proc.devRef .tc main_arg1) := by
  rw [ops_cut, after_append, after_append, after_append, after_append, s5_arg1, s4_arg1, s3_arg1, s2_arg1, s1_arg1]
theorem kept_arg2 (V : Valuation τ sig (Elt F)) : after ops V (Proc.devRef .tc main_arg2) = V (Proc.devRef .tc main_arg2) := by
  rw [ops_cut, after_append, after_append, after_append, after_append, s5_arg2, s4_arg2, s3_arg2, s2_arg2, s1_arg2]
theorem kept_arg3 (V : Valuation τ sig (Elt F)) : after ops V (Proc.devRef .tc main_arg3) = V (Proc.devRef .tc main_arg3) := by
  rw [ops_cut, after_append, after_append, after_append, after_append, s5_arg3, s4_arg3, s3_arg3, s2_arg3, s1_arg3]
theorem kept_arg4 (V : Valuation τ sig (Elt F)) : after ops V (Proc.devRef .tc main_arg4) = V (Proc.devRef .tc main_arg4) := by
  rw [ops_cut, after_append, after_append, after_append, after_append, s5_arg4, s4_arg4, s3_arg4, s2_arg4, s1_arg4]
theorem kept_arg5 (V : Valuation τ sig (Elt F)) : after ops V (Proc.devRef .tc main_arg5) = V (Proc.devRef .tc main_arg5) := by
  rw [ops_cut, after_append, after_append, after_append, after_append, s5_arg5, s4_arg5, s3_arg5, s2_arg5, s1_arg5]
theorem kept_arg6 (V : Valuation τ sig (Elt F)) : after ops V (Proc.devRef .tc main_arg6) = V (Proc.devRef .tc main_arg6) := by
  rw [ops_cut, after_append, after_append, after_append, after_append, s5_arg6, s4_arg6, s3_arg6, s2_arg6, s1_arg6]
theorem kept_arg7 (V : Valuation τ sig (Elt F)) : after ops V (Proc.devRef .tc main_arg7) = V (Proc.devRef .tc main_arg7) := by
  rw [ops_cut, after_append, after_append, after_append, after_append, s5_arg7, s4_arg7, s3_arg7, s2_arg7, s1_arg7]

/-- After the whole line the result buffer holds the last stage of the arguments. -/
theorem result_eq (V : Valuation τ sig (Elt F)) :
    after ops V (Proc.devRef .tc main_v65) = val_main_v65 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_cut, after_append, after_append, after_append, after_append]
  have hh : after stretch2 (after stretch1 V) (Proc.devRef .tc main_v34) = val_main_v34 (F := F) (V (Proc.devRef .tc main_arg0)) (V (Proc.devRef .tc main_arg1)) (V (Proc.devRef .tc main_arg2)) (V (Proc.devRef .tc main_arg3)) (V (Proc.devRef .tc main_arg4)) :=
    s2_hidden (after stretch1 V) _ _ _ _ _ (s1_mean V) (s1_arg0 V) (s1_arg2 V) (s1_arg3 V) (s1_arg4 V)
  have hs : after stretch2 (after stretch1 V) (Proc.devRef .tc main_v1) = val_main_v1 (F := F) (V (Proc.devRef .tc main_arg1)) := (s2_src _).trans (s1_src V)
  have hd : after stretch2 (after stretch1 V) (Proc.devRef .tc main_v3) = val_main_v3 (F := F) (V (Proc.devRef .tc main_arg1)) := (s2_dst _).trans (s1_dst V)
  have hm : after stretch3 (after stretch2 (after stretch1 V)) (Proc.devRef .tc main_v53) = val_main_v53 (F := F) (V (Proc.devRef .tc main_arg0)) (V (Proc.devRef .tc main_arg1)) (V (Proc.devRef .tc main_arg2)) (V (Proc.devRef .tc main_arg3)) (V (Proc.devRef .tc main_arg4)) :=
    s3_mean _ _ _ _ _ _ hh hs hd
  have hh3 : after stretch3 (after stretch2 (after stretch1 V)) (Proc.devRef .tc main_v34) = val_main_v34 (F := F) (V (Proc.devRef .tc main_arg0)) (V (Proc.devRef .tc main_arg1)) (V (Proc.devRef .tc main_arg2)) (V (Proc.devRef .tc main_arg3)) (V (Proc.devRef .tc main_arg4)) :=
    (s3_hidden _).trans hh
  exact s5_out _ _ _ _ _ _ _ _ _ (s4_unit _ _ _ _ _ _ _ _ _ hm hh3
    ((s3_arg5 _).trans ((s2_arg5 _).trans (s1_arg5 V))) ((s3_arg6 _).trans ((s2_arg6 _).trans (s1_arg6 V)))
    ((s3_arg7 _).trans ((s2_arg7 _).trans (s1_arg7 V))))

/-- On every device, from any memory with zero counters: every weakly fair execution of the reference terminates with
    the result buffer at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v65).trans (result_eq _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _)⟩)
    (run_seq scopedRefs_eq scopedSems_eq defs main (fun _ => ops) main_eq (fun _ => ops_sub) m ρ)

end Cert.ReferenceIdeal.RunS

end
-- ==== Proof.lean ====
/-
  The certificate of a two-layer graph convolution: a kernel of two pipelined regions among host operations against a
  plain array program, equal over the extended reals.

  Each layer sends a node's row to the unit vector of `mean · Wl + own · Wr + b` (its length floored), then clamps at
  zero (first layer) or takes the row's log-softmax (second layer); `mean` is the neighbour mean of the layer's input
  over the edge array. The kernel computes the mean as a product with the reciprocal of the floored degree and each
  layer tile by tile over 4000 rows; the reference divides by the floored degree and computes each layer on the whole
  array, adding the bias before the second product. A layer's row depends on its inputs' same row only, so the tiles
  assemble to the layer of the whole arrays; the floored degree is never zero, so the product with its reciprocal is the
  quotient; and addition on the extended reals is commutative and associative. Both programs therefore end with the
  same array: the two layers composed over the neighbour mean. The precondition is never opened.
-/
import proofs.«104940_j22411139350784_1_alg».proof.Defs
import proofs.«104940_j22411139350784_1_alg».proof.Proof.Gen.Kernel
import proofs.«104940_j22411139350784_1_alg».proof.Proof.Gen.Kernel.Skeleton
import proofs.«104940_j22411139350784_1_alg».proof.Proof.Gen.Kernel.Launch
import proofs.«104940_j22411139350784_1_alg».proof.Proof.Gen.Kernel.Points
import proofs.«104940_j22411139350784_1_alg».proof.Proof.Gen.Kernel.Frame
import proofs.«104940_j22411139350784_1_alg».proof.Proof.Gen.KernelIdeal
import proofs.«104940_j22411139350784_1_alg».proof.Proof.Gen.KernelIdeal.Skeleton
import proofs.«104940_j22411139350784_1_alg».proof.Proof.Gen.KernelIdeal.Launch
import proofs.«104940_j22411139350784_1_alg».proof.Proof.Gen.KernelIdeal.Points
import proofs.«104940_j22411139350784_1_alg».proof.Proof.Gen.KernelIdeal.Frame
import proofs.«104940_j22411139350784_1_alg».proof.Proof.Gen.ReferenceIdeal
import proofs.«104940_j22411139350784_1_alg».proof.Proof.Gen.Pre_finite_inputs
import proofs.«104940_j22411139350784_1_alg».proof.Proof.KernelValue
import proofs.«104940_j22411139350784_1_alg».proof.Proof.RefValue
import proofs.«104940_j22411139350784_1_alg».proof.Proof.RefStretch
import Idealize.ShloMosaic.Adequacy
import Idealize.ShloMosaic.Init

noncomputable section

namespace Cert.Proof

open Idealize.ShloMosaic Idealize.SL.Sem

/-- Both idealized programs end with the network of the arguments: the kernel over the product-spelt mean, the
    reference over the quotient-spelt mean, and the network does not see the difference. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RunS.run (F := Ideal) m' ρ')
  rw [Cert.ReferenceIdeal.RefValue.ref_net,
    ← Cert.KernelIdeal.Mean.net_meanMul_eq_net_meanDiv,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunS.run (F := Ideal) m ρ),
  trivial,
  algebraic⟩

end Cert.Proof

end
